-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x64 : S_.BroadcastsInDim S800000x64 (![] : Fin 0 → Fin S800000x64.rank)
  reducesTo_S800000x64_S_d0_1 : S800000x64.ReducesTo [0, 1] S_
  bcast_S_S192x128 : S_.BroadcastsInDim S192x128 (![] : Fin 0 → Fin S192x128.rank)
  reducesTo_S192x128_S_d0_1 : S192x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg7 : FVec F S128 .f32) (main_arg8 : FVec F S128x64 .f32) (main_arg9 : FVec F S64 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg8
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg4 : FVec F S128x64 .f32) (main_arg5 : FVec F S64 .f32) (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S50000x64 .f32) (main_arg1 : FVec F S800000x64 .f32) (main_arg2 : FVec F S192x128 .f32) (main_arg3 : FVec F S128 .f32) (main_arg4 : FVec F S128x64 .f32) (main_arg5 : FVec F S64 .f32) (main_arg6 : FVec F S128x128 .f32) (main_arg7 : FVec F S128 .f32) (main_arg8 : FVec F S128x64 .f32) (main_arg9 : FVec F S64 .f32) (main_arg10 : IVec S800000 32) (main_arg11 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x64 .f32 := Host.absf main_arg1
  let main_cst_0 : FVec F S_ .f32 := constant S_ .f32 0x7F800000#32
  let main_v5 : FVec F S800000x64 .f32 := broadcastInDim S800000x64 ![] bcast_S_S800000x64 main_cst_0
  let main_v6 : IVec S800000x64 1 := cmpf .olt main_v4 main_v5
  let main_c_1 : IVec S_ 1 := constantI S_ 1 1#1
  let main_v7 : IVec S_ 1 := (fun x v => Host.reduce IntOp.andi x v reducesTo_S800000x64_S_d0_1 h_S_) main_v6 main_c_1
  let main_v8 : IVec S_ 1 := andi main_v3 main_v7
  let main_v9 : FVec F S192x128 .f32 := Host.absf main_arg2
  let main_cst_2 : FVec F S_ .f32 := constant S_ .f32 0x7F800000#32
  let main_v10 : FVec F S192x128 .f32 := broadcastInDim S192x128 ![] bcast_S_S192x128 main_cst_2
  let main_v11 : IVec S192x128 1 := cmpf .olt main_v9 main_v10
  let main_c_3 : IVec S_ 1 := constantI S_ 1 1#1
  let main_v12 : IVec S_ 1 := (fun x v => Host.reduce IntOp.andi x v reducesTo_S192x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S64x128 : Shape := ⟨2, ![64, 128]⟩
abbrev S8000x64 : Shape := ⟨2, ![8000, 64]⟩
abbrev S8000x128 : Shape := ⟨2, ![8000, 128]⟩
abbrev S1x128 : Shape := ⟨2, ![1, 128]⟩
abbrev S1x64 : Shape := ⟨2, ![1, 64]⟩
abbrev S5000x64 : Shape := ⟨2, ![5000, 64]⟩
abbrev S5000x128 : Shape := ⟨2, ![5000, 128]⟩

abbrev nBuf : Space → Nat
  | .hbm => 41
  | .vmem => 25
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S64x128, .f32⟩
  | .hbm, ⟨31, _⟩ => ⟨S64x128, .f32⟩
  | .hbm, ⟨32, _⟩ => ⟨S64x128, .f32⟩
  | .hbm, ⟨33, _⟩ => ⟨S800000x64, .f32⟩
  | .hbm, ⟨34, _⟩ => ⟨S_, .f32⟩
  | .hbm, ⟨35, _⟩ => ⟨S50000x64, .f32⟩
  | .hbm, ⟨36, _⟩ => ⟨S800000x1, .i32⟩
  | .hbm, ⟨37, _⟩ => ⟨S50000x64, .f32⟩
  | .hbm, ⟨38, _⟩ => ⟨S64x128, .f32⟩
  | .hbm, ⟨39, _⟩ => ⟨S64x128, .f32⟩
  | .hbm, ⟨40, _⟩ => ⟨S50000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S64x128, .f32⟩
  | .local _ .vmem, ⟨7, _⟩ => ⟨S64x128, .f32⟩
  | .local _ .vmem, ⟨8, _⟩ => ⟨S64x128, .f32⟩
  | .local _ .vmem, ⟨9, _⟩ => ⟨S128, .f32⟩
  | .local _ .vmem, ⟨10, _⟩ => ⟨S128x64, .f32⟩
  | .local _ .vmem, ⟨11, _⟩ => ⟨S64, .f32⟩
  | .local _ .vmem, ⟨12, _⟩ => ⟨S8000x64, .f32⟩
  | .local _ .vmem, ⟨13, _⟩ => ⟨S8000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x128, .f32⟩
  | .local _ .vmem, ⟨19, _⟩ => ⟨S64x128, .f32⟩
  | .local _ .vmem, ⟨20, _⟩ => ⟨S128, .f32⟩
  | .local _ .vmem, ⟨21, _⟩ => ⟨S128x64, .f32⟩
  | .local _ .vmem, ⟨22, _⟩ => ⟨S64, .f32⟩
  | .local _ .vmem, ⟨23, _⟩ => ⟨S5000x64, .f32⟩
  | .local _ .vmem, ⟨24, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg7_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem7_1 : DmaSem sig := 24

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  slices_S192x128_S64x128_0_0 : S192x128.Slices ![0, 0] S64x128
  slices_S192x128_S64x128_64_0 : S192x128.Slices ![64, 0] S64x128
  slices_S192x128_S64x128_128_0 : S192x128.Slices ![128, 0] S64x128
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  shapeCasts_S8000x64_S8000x64 : S8000x64.ShapeCasts S8000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S8000x64 : S1x64.Broadcasts S8000x64
  bcast_S_S50000x64 : S_.BroadcastsInDim S50000x64 (![] : Fin 0 → Fin S50000x64.rank)
  slices_S128x128_S64x128_0_0 : S128x128.Slices ![0, 0] S64x128
  slices_S128x128_S64x128_64_0 : S128x128.Slices ![64, 0] S64x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  broadcasts_S1x128_S5000x128 : S1x128.Broadcasts S5000x128
  broadcasts_S1x64_S5000x64 : S1x64.Broadcasts S5000x64
  gather_S50000x64_S800000x1_S800000x64_1_0_n_n_0_1_164_wf : GatherDims.WF S50000x64 S800000x1 S800000x64 [1] [0] [] [0] [] 1 ![1, 64]
  dot_S8000x64_S64x128_S8000x128_1_0_0_1_n_n_wf : DotDims.WF S8000x64 S64x128 S8000x128 [1] [0] [0] [1] [] []
  dot_S8000x128_S128x64_S8000x64_1_0_0_1_n_n_wf : DotDims.WF S8000x128 S128x64 S8000x64 [1] [0] [0] [1] [] []
  scatter_S50000x64_S800000x1_S800000x64_1_0_0_1_wf : ScatterDims.WF S50000x64 S800000x1 S800000x64 [1] [0] [0] 1
  dot_S5000x64_S64x128_S5000x128_1_0_0_1_n_n_wf : DotDims.WF S5000x64 S64x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S800000x64.size a
  hwx0_0 : ∀ i : grid0.Coords, EltTy.bits .f32 = 32 ∨ (Rect.block (s := S800000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S800000x64.size a
  hwx0_1 : ∀ i : grid0.Coords, EltTy.bits .f32 = 32 ∨ (Rect.block (s := S800000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S800000x64.size a
  hwx0_2 : ∀ i : grid0.Coords, EltTy.bits .f32 = 32 ∨ (Rect.block (s := S800000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x64.size a ≤ S800000x64.size a
  hwx0_9 : ∀ i : grid0.Coords, EltTy.bits .f32 = 32 ∨ (Rect.block (s := S800000x64) S8000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x64_S64x128_S8000x128_1_0_0_1_n_n : DotDims S8000x64 S64x128 S8000x128 where
  lhsContracting := [1]
  rhsContracting := [0]
  lhsNonContracting := [0]
  rhsNonContracting := [1]
  lhsBatch := []
  rhsBatch := []
  wf := dot_S8000x64_S64x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg3) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg4) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg5) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S8000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v20) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v23) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S800000x64 : Shape := ⟨2, ![800000, 64]⟩
abbrev S192x128 : Shape := ⟨2, ![192, 128]⟩
abbrev S128 : Shape := ⟨1, ![128]⟩
abbrev S128x64 : Shape := ⟨2, ![128, 64]⟩
abbrev S64 : Shape := ⟨1, ![64]⟩
abbrev S128x128 : Shape := ⟨2, ![128, 128]⟩
abbrev S800000 : Shape := ⟨1, ![800000]⟩
abbrev S_ : Shape := ⟨0, ![]⟩
abbrev S800000x1 : Shape := ⟨2, ![800000, 1]⟩
abbrev S800000x192 : Shape := ⟨2, ![800000, 192]⟩
abbrev S800000x128 : Shape := ⟨2, ![800000, 128]⟩
abbrev S1x128 : Shape := ⟨2, ![1, 128]⟩
abbrev S1x64 : Shape := ⟨2, ![1, 64]⟩
abbrev S50000x128 : Shape := ⟨2, ![50000, 128]⟩

abbrev nBuf : Space → Nat
  | .hbm => 58
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000x64, .f32⟩
  | .hbm, ⟨2, _⟩ => ⟨S192x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S64, .f32⟩
  | .hbm, ⟨10, _⟩ => ⟨S800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x64, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x64, .f32⟩
  | .hbm, ⟨30, _⟩ => ⟨S800000x192, .f32⟩
  | .hbm, ⟨31, _⟩ => ⟨S800000x128, .f32⟩
  | .hbm, ⟨32, _⟩ => ⟨S1x128, .f32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x64, .f32⟩
  | .hbm, ⟨39, _⟩ => ⟨S1x64, .f32⟩
  | .hbm, ⟨40, _⟩ => ⟨S800000x64, .f32⟩
  | .hbm, ⟨41, _⟩ => ⟨S800000x64, .f32⟩
  | .hbm, ⟨42, _⟩ => ⟨S_, .f32⟩
  | .hbm, ⟨43, _⟩ => ⟨S50000x64, .f32⟩
  | .hbm, ⟨44, _⟩ => ⟨S800000x1, .i32⟩
  | .hbm, ⟨45, _⟩ => ⟨S50000x64, .f32⟩
  | .hbm, ⟨46, _⟩ => ⟨S50000x128, .f32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S50000x128, .f32⟩
  | .hbm, ⟨51, _⟩ => ⟨S_, .f32⟩
  | .hbm, ⟨52, _⟩ => ⟨S50000x128, .f32⟩
  | .hbm, ⟨53, _⟩ => ⟨S50000x128, .f32⟩
  | .hbm, ⟨54, _⟩ => ⟨S50000x64, .f32⟩
  | .hbm, ⟨55, _⟩ => ⟨S1x64, .f32⟩
  | .hbm, ⟨56, _⟩ => ⟨S50000x64, .f32⟩
  | .hbm, ⟨57, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call0_cst : Ref sig .tc := ⟨.hbm, 35, rfl⟩
abbrev main_call0_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_call1_cst : Ref sig .tc := ⟨.hbm, 51, rfl⟩
abbrev main_call1_v0 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x64_S800000x192_d1 : Shape.Concatenates [S800000x64, S800000x64, S800000x64] S800000x192 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x192_S192x128_S800000x128_1_0_0_1_n_n_wf : DotDims.WF S800000x192 S192x128 S800000x128 [1] [0] [0] [1] [] []
  dot_S800000x128_S128x64_S800000x64_1_0_0_1_n_n_wf : DotDims.WF S800000x128 S128x64 S800000x64 [1] [0] [0] [1] [] []
  scatter_S50000x64_S800000x1_S800000x64_1_0_0_1_wf : ScatterDims.WF S50000x64 S800000x1 S800000x64 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x128_S800000x128_1_0_0_1_n_n : DotDims S800000x192 S192x128 S800000x128 where
  lhsContracting := [1]
  rhsContracting := [0]
  lhsNonContracting := [0]
  rhsNonContracting := [1]
  lhsBatch := []
  rhsBatch := []
  wf := dot_S800000x192_S192x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Mlp.lean ====
/-
  The mathematics both programs compute, stated once over plain index types.

  A two-layer perceptron applied row by row: the hidden layer is a sum of row-by-matrix products (three for an edge:
  its own features, the sender's and the receiver's; two for a node: the aggregated messages and its own features),
  plus a bias, clipped below at zero; the output layer is one more row-by-matrix product plus a bias.
  Everything is over the extended reals; only commutativity and associativity of `+` are used, so nothing here
  asks the inputs to be finite.
-/
import Idealize.ShloMosaic.PureOps.Ideal
import Idealize.ShloMosaic.Lib.ValueIdx
import Mathlib.Algebra.BigOperators.Fin

noncomputable section

namespace Cert.Mlp

open Idealize.ShloMosaic Idealize.ShloMosaic.ValueIdx

/-- The zero the hidden layer is clipped at: the float word `0x00000000` read at the ideal instance. It is the same
    word in both programs, so it is never evaluated. -/
abbrev z0 : EReal := Ideal.ofBits .f32 0x00000000#32

/-- Entry `h` of a length-64 row times a 64×128 matrix. -/
def rowDot (x : Fin 64 → EReal) (w : Fin 64 → Fin 128 → EReal) (h : Fin 128) : EReal :=
  ∑ k : Fin 64, x k * w k h

/-- The output layer on a pre-activation row `pre`: add the bias, clip at zero, multiply by the 128×64 matrix, add the
    second bias; entry `q`. -/
def outLayer (pre b1 : Fin 128 → EReal) (w2 : Fin 128 → Fin 64 → EReal) (b2 : Fin 64 → EReal) (q : Fin 64) : EReal :=
  (∑ h : Fin 128, max (pre h + b1 h) z0 * w2 h q) + b2 q

/-- One edge's updated features: the hidden layer sums three products. -/
def edgeRow (x0 x1 x2 : Fin 64 → EReal) (w0 w1 w2 : Fin 64 → Fin 128 → EReal) (b1 : Fin 128 → EReal)
    (w3 : Fin 128 → Fin 64 → EReal) (b2 : Fin 64 → EReal) (q : Fin 64) : EReal :=
  outLayer (fun h => rowDot x0 w0 h + rowDot x1 w1 h + rowDot x2 w2 h) b1 w3 b2 q

/-- One node's updated features: the hidden layer sums two products. -/
def nodeRow (x0 x1 : Fin 64 → EReal) (w0 w1 : Fin 64 → Fin 128 → EReal) (b1 : Fin 128 → EReal)
    (w3 : Fin 128 → Fin 64 → EReal) (b2 : Fin 64 → EReal) (q : Fin 64) : EReal :=
  outLayer (fun h => rowDot x0 w0 h + rowDot x1 w1 h) b1 w3 b2 q

/-! ## A product with a stacked matrix is the sum of the products with its parts

A row of length 192 made of three rows of length 64 laid end to end, times a 192×128 matrix, is the sum of the three
rows times the three 64-row bands of the matrix: the sum over `Fin 192` is regrouped, nothing else. -/

theorem sum_fin192 (f : Fin 192 → EReal) :
    ∑ k : Fin 192, f k
      = ∑ k : Fin 64, f ⟨k.val, by omega⟩ + ∑ k : Fin 64, f ⟨64 + k.val, by omega⟩ + ∑ k : Fin 64, f ⟨128 + k.val, by omega⟩ := by
  have h1 := Fin.sum_univ_add (M := EReal) (a := 128) (b := 64) (fun k : Fin (128 + 64) => f ⟨k.val, by omega⟩)
  have h2 := Fin.sum_univ_add (M := EReal) (a := 64) (b := 64) (fun k : Fin (64 + 64) => f ⟨k.val, by omega⟩)
  calc ∑ k : Fin 192, f k = ∑ k : Fin (128 + 64), f ⟨k.val, by omega⟩ := rfl
    _ = ∑ k : Fin 128, f ⟨k.val, by omega⟩ + ∑ k : Fin 64, f ⟨128 + k.val, by omega⟩ := h1
    _ = _ := by
      exact congrArg (· + ∑ k : Fin 64, f ⟨128 + k.val, by omega⟩) h2

theorem sum_fin128 (f : Fin 128 → EReal) :
    ∑ k : Fin 128, f k = ∑ k : Fin 64, f ⟨k.val, by omega⟩ + ∑ k : Fin 64, f ⟨64 + k.val, by omega⟩ :=
  Fin.sum_univ_add (M := EReal) (a := 64) (b := 64) (fun k : Fin (64 + 64) => f ⟨k.val, by omega⟩)

/-! ## The two layers over whole arrays

The edge array has 800000 rows and the node array 50000 rows of 64 features; the weights are 64×128 bands and a 128×64
matrix; the biases have 128 and 64 entries. Each output row depends only on the same row of the inputs. -/

abbrev SE : Shape := ⟨2, ![800000, 64]⟩
abbrev SN : Shape := ⟨2, ![50000, 64]⟩
abbrev SB : Shape := ⟨2, ![64, 128]⟩
abbrev SO : Shape := ⟨2, ![128, 64]⟩
abbrev SH : Shape := ⟨1, ![128]⟩
abbrev SD : Shape := ⟨1, ![64]⟩
abbrev SW3 : Shape := ⟨2, ![192, 128]⟩
abbrev SW2 : Shape := ⟨2, ![128, 128]⟩

/-- Every edge's updated features, from the edge features, the gathered sender and receiver features, the three
    bands of the first weight, and the rest of the parameters. -/
def edgeArr (ef gs gr : SE.Idx → EReal) (w0 w1 w2 : SB.Idx → EReal) (b1 : SH.Idx → EReal) (w3 : SO.Idx → EReal)
    (b2 : SD.Idx → EReal) : SE.Idx → EReal := fun i =>
  edgeRow (fun k => ef (ix2 (n0 := 800000) (n1 := 64) (i 0) k)) (fun k => gs (ix2 (n0 := 800000) (n1 := 64) (i 0) k))
    (fun k => gr (ix2 (n0 := 800000) (n1 := 64) (i 0) k))
    (fun k h => w0 (ix2 k h)) (fun k h => w1 (ix2 k h)) (fun k h => w2 (ix2 k h)) (fun h => b1 (ix1 h))
    (fun h q => w3 (ix2 h q)) (fun q => b2 (ix1 q)) (i 1)

/-- Every node's updated features, from the aggregated messages, the node features, the two bands of the first weight,
    and the rest of the parameters. -/
def nodeArr (agg nf : SN.Idx → EReal) (w0 w1 : SB.Idx → EReal) (b1 : SH.Idx → EReal) (w3 : SO.Idx → EReal)
    (b2 : SD.Idx → EReal) : SN.Idx → EReal := fun i =>
  nodeRow (fun k => agg (ix2 (n0 := 50000) (n1 := 64) (i 0) k)) (fun k => nf (ix2 (n0 := 50000) (n1 := 64) (i 0) k))
    (fun k h => w0 (ix2 k h)) (fun k h => w1 (ix2 k h)) (fun h => b1 (ix1 h))
    (fun h q => w3 (ix2 h q)) (fun q => b2 (ix1 q)) (i 1)

/-- Rows `off … off + 63` of a matrix with 128 columns: a band of a stacked weight. -/
def band {R : Nat} (off : Nat) (hoff : off + 64 ≤ R) (W : (⟨2, ![R, 128]⟩ : Shape).Idx → EReal) : SB.Idx → EReal :=
  fun j => W (ix2 (n0 := R) (n1 := 128) ⟨off + (j 0).val, by have := (j 0).isLt; simp at this; omega⟩ (j 1))

end Cert.Mlp

end
-- ==== Proof.EdgeAux.lean ====
/-
  The edge perceptron's arithmetic, read at one entry of a block.

  The body of the edge region computes, from a block of 8000 rows of each of the three inputs and the whole weights and
  biases, a block of 8000 output rows. Over the extended reals every change of float format is the identity, so entry
  (p, q) of that block is the perceptron's entry q on row p of the three input blocks.
-/
import proofs.«111756_j40140764348810_1_alg».proof.Proof.Gen.KernelIdeal.Skeleton
import proofs.«111756_j40140764348810_1_alg».proof.Proof.Mlp
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Cert.Mlp
open Idealize.ShloMosaic Idealize.ShloMosaic.TcCoe Idealize.ShloMosaic.ValueIdx Idealize.SL.Sem

/-! ## A product of a block of rows with a matrix, read at one entry

Entry (p, h) of the product is the sum over the shared axis of the row's entries times the column's. The contraction
index of the product is a one-axis index; it is re-indexed by its one coordinate. -/

theorem lhsA_0 (i : S8000x128.Idx) (q : dot_S8000x64_S64x128_S8000x128_1_0_0_1_n_n.contr.Idx) :
    (dot_S8000x64_S64x128_S8000x128_1_0_0_1_n_n.lhsIdx i q 0).val = (i 0).val := by
  unfold DotDims.lhsIdx
  rw [dif_neg (show ¬(0 : Fin S8000x64.rank) ∈ dot_S8000x64_S64x128_S8000x128_1_0_0_1_n_n.lhsBatch by decide), dif_pos (show (0 : Fin S8000x64.rank) ∈ dot_S8000x64_S64x128_S8000x128_1_0_0_1_n_n.lhsNonContracting by decide)]
  rfl
theorem lhsA_1 (i : S8000x128.Idx) (q : dot_S8000x64_S64x128_S8000x128_1_0_0_1_n_n.contr.Idx) :
    (dot_S8000x64_S64x128_S8000x128_1_0_0_1_n_n.lhsIdx i q 1).val = (q ⟨0, by decide⟩).val :=
  dot_S8000x64_S64x128_S8000x128_1_0_0_1_n_n.lhsIdx_val_of_single rfl i q
theorem rhsA_0 (i : S8000x128.Idx) (q : dot_S8000x64_S64x128_S8000x128_1_0_0_1_n_n.contr.Idx) :
    (dot_S8000x64_S64x128_S8000x128_1_0_0_1_n_n.rhsIdx i q 0).val = (q ⟨0, by decide⟩).val :=
  dot_S8000x64_S64x128_S8000x128_1_0_0_1_n_n.rhsIdx_val_of_single rfl i q
theorem rhsA_1 (i : S8000x128.Idx) (q : dot_S8000x64_S64x128_S8000x128_1_0_0_1_n_n.contr.Idx) :
    (dot_S8000x64_S64x128_S8000x128_1_0_0_1_n_n.rhsIdx i q 1).val = (i 1).val := by
  unfold DotDims.rhsIdx
  rw [dif_neg (show ¬(1 : Fin S64x128.rank) ∈ dot_S8000x64_S64x128_S8000x128_1_0_0_1_n_n.rhsBatch by decide), dif_pos (show (1 : Fin S64x128.rank) ∈ dot_S8000x64_S64x128_S8000x128_1_0_0_1_n_n.rhsNonContracting by decide)]
  rfl

/-- A block of 8000 rows of length 64 times a 64×128 matrix, into the zero accumulator, at entry (p, h). -/
theorem hidden_prod_apply (l : FVec Ideal S8000x64 .bf16) (r : FVec Ideal S64x128 .bf16) (p : Fin 8000) (h : Fin 128) :
    matmul dot_S8000x64_S64x128_S8000x128_1_0_0_1_n_n none l r (constant (F := Ideal) S8000x128 .f32 0x00000000#32) (ix2 p h)
      = ∑ k : Fin 64, l (ix2 p k) * r (ix2 k h) := by
  simp only [matmul]
  rw [Ideal.matmul_constant_zero_apply, ← Equiv.sum_comp (ValueIdx.contrEquiv1 dot_S8000x64_S64x128_S8000x128_1_0_0_1_n_n 64 rfl rfl).symm]
  refine Finset.sum_congr rfl fun k _ => ?_
  have hk := ValueIdx.contrEquiv1_symm_val dot_S8000x64_S64x128_S8000x128_1_0_0_1_n_n 64 rfl rfl k
  have el : dot_S8000x64_S64x128_S8000x128_1_0_0_1_n_n.lhsIdx (ix2 p h) ((ValueIdx.contrEquiv1 dot_S8000x64_S64x128_S8000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S8000x64_S64x128_S8000x128_1_0_0_1_n_n.rhsIdx (ix2 p h) ((ValueIdx.contrEquiv1 dot_S8000x64_S64x128_S8000x128_1_0_0_1_n_n 64 rfl rfl).symm k) = ix2 k h := funext fun a => Fin.ext (by
    match a with
    | ⟨0, _⟩ => exact (rhsA_0 _ _).trans hk
    | ⟨1, _⟩ => exact rhsA_1 _ _)
  rw [el, er]

theorem lhsB_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhsB_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhsB_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhsB_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- A block of 8000 rows of length 128 times a 128×64 matrix, into the zero accumulator, at entry (p, q). -/
theorem out_prod_apply (l : FVec Ideal S8000x128 .bf16) (r : FVec Ideal S128x64 .bf16) (p : Fin 8000) (q : Fin 64) :
    matmul dot_S8000x128_S128x64_S8000x64_1_0_0_1_n_n none l r (constant (F := Ideal) S8000x64 .f32 0x00000000#32) (ix2 p q)
      = ∑ h : Fin 128, l (ix2 p h) * r (ix2 h q) := by
  simp only [matmul]
  rw [Ideal.matmul_constant_zero_apply, ← Equiv.sum_comp (ValueIdx.contrEquiv1 dot_S8000x128_S128x64_S8000x64_1_0_0_1_n_n 128 rfl rfl).symm]
  refine Finset.sum_congr rfl fun k _ => ?_
  have hk := ValueIdx.contrEquiv1_symm_val dot_S8000x128_S128x64_S8000x64_1_0_0_1_n_n 128 rfl rfl k
  have el : dot_S8000x128_S128x64_S8000x64_1_0_0_1_n_n.lhsIdx (ix2 p q) ((ValueIdx.contrEquiv1 dot_S8000x128_S128x64_S8000x64_1_0_0_1_n_n 128 rfl rfl).symm k) = ix2 p k := funext fun a => Fin.ext (by
    match a with
    | ⟨0, _⟩ => exact lhsB_0 _ _
    | ⟨1, _⟩ => exact (lhsB_1 _ _).trans hk)
  have er : dot_S8000x128_S128x64_S8000x64_1_0_0_1_n_n.rhsIdx (ix2 p q) ((ValueIdx.contrEquiv1 dot_S8000x128_S128x64_S8000x64_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ## A bias row laid over every row of a block -/

/-- The 128 biases, as one row, copied to each of the 8000 rows: entry (p, h) is bias h. -/
theorem bias128_apply (b : Vec Ideal S128 .f32) (p : Fin 8000) (h : Fin 128) :
    broadcastTo S8000x128 (shapeCast S1x128 b shapeCasts_S128_S1x128) broadcasts_S1x128_S8000x128 (ix2 p h) = b (ix1 h) := by
  rw [broadcastTo_1b_ab_apply, shapeCast_a_1a_apply]

/-- The 64 biases, as one row, copied to each of the 8000 rows: entry (p, q) is bias q. -/
theorem bias64_apply (b : Vec Ideal S64 .f32) (p : Fin 8000) (q : Fin 64) :
    broadcastTo S8000x64 (shapeCast S1x64 b shapeCasts_S64_S1x64) broadcasts_S1x64_S8000x64 (ix2 p q) = b (ix1 q) := by
  rw [broadcastTo_1b_ab_apply, shapeCast_a_1a_apply]

/-! ## The body's arithmetic at one entry -/

/-- Entry (p, q) of what the body computes from its nine blocks is the edge perceptron's entry q on row p of the three
    row blocks: every change of float format is the identity on the extended reals, a cast of a shape to itself changes
    nothing, each product into the zero accumulator is the plain sum, and the biases are read off their one row. -/
theorem pay_apply (x0 x1 x2 : Vec Ideal S8000x64 .f32) (x3 x4 x5 : Vec Ideal S64x128 .f32) (x6 : Vec Ideal S128 .f32)
    (x7 : Vec Ideal S128x64 .f32) (x8 : Vec Ideal S64 .f32) (p : Fin 8000) (q : Fin 64) :
    k0_pay1 x0 x1 x2 x3 x4 x5 x6 x7 x8 (ix2 p q)
      = edgeRow (fun k => x0 (ix2 p k)) (fun k => x1 (ix2 p k)) (fun k => x2 (ix2 p k))
          (fun k h => x3 (ix2 k h)) (fun k h => x4 (ix2 k h)) (fun k h => x5 (ix2 k h)) (fun h => x6 (ix1 h))
          (fun h q => x7 (ix2 h q)) (fun q => x8 (ix1 q)) q := by
  unfold k0_pay1
  rw [addf_apply, out_prod_apply, bias64_apply]
  unfold edgeRow outLayer rowDot
  refine congrArg (· + x8 (ix1 q)) (Finset.sum_congr rfl fun h _ => ?_)
  rw [truncf_apply, truncf_apply, maximumf_apply, addf_apply, addf_apply, addf_apply, hidden_prod_apply, hidden_prod_apply,
    hidden_prod_apply, bias128_apply, broadcast_apply]
  simp only [truncf_apply, shapeCast_self]
  rfl

end Cert.KernelIdeal.EdgeValue

end
-- ==== Proof.Edge.lean ====
import proofs.«111756_j40140764348810_1_alg».proof.Proof.Gen.KernelIdeal.Frame
import proofs.«111756_j40140764348810_1_alg».proof.Proof.Mlp
import proofs.«111756_j40140764348810_1_alg».proof.Proof.EdgeAux
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.EdgeValue

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Where each window's block sits in its array

The grid has 100 points. The three row-blocked inputs and the output take rows `8000 t … 8000 t + 7999` at point `t`;
the weights and biases are whole at every point. A block's coordinate in its array is the block index times the
block's size plus the coordinate inside the block. -/

theorem edge_hz2 : (![0, 0] : Fin 2 → Nat) = fun _ => 0 := funext fun a => by fin_cases a <;> rfl
theorem edge_hz1 : (![0] : Fin 1 → Nat) = fun _ => 0 := funext fun a => by fin_cases a <;> rfl

/-- The row-blocked windows' block index at point `t` is `(t, 0)`. -/
theorem edge_row_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0 :=
  (by decide +kernel : ∀ t : Fin grid0.N, _)

/-- The weights' and biases' block index is zero at every point. -/
theorem edge_whole_index : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0 :=
  (by decide +kernel : ∀ t : Fin grid0.N, _)

/-- Row `p` of point `t`'s block is row `8000 t + p` of the array, which has 800000 rows. -/
theorem edge_row_lt (t : Fin cfg0.N) (p : Fin 8000) : t.val * 8000 + p.val < 800000 := by
  have ht : t.val < 100 := t.isLt
  have hp := p.isLt
  omega

/-- The row of the array that row `p` of point `t`'s block is. -/
abbrev edgeRowAt (t : Fin cfg0.N) (p : Fin 8000) : Fin 800000 := ⟨t.val * 8000 + p.val, edge_row_lt t p⟩

/-- The edge features' block at point `t`, entry (p, k), is the array's entry (8000 t + p, k). -/
theorem read_ef (c : Dev nD) (t : Fin cfg0.N) (p : Fin 8000) (k : Fin 64) :
    iblk0 V c 0 t (ix2 p k) = V c main_arg1 (ix2 (n0 := 800000) (n1 := 64) (edgeRowAt t p) k) := by
  show V c main_arg1 (((cfg0.win 0).blk t).view.emb (ix2 p k)) = _
  obtain ⟨e0, e1, -⟩ := edge_row_index t
  refine congrArg (V c main_arg1) (funext fun a => Fin.ext ?_)
  match a with
  | ⟨0, _⟩ => show win0_0.index t (0 : Fin 2) * 8000 + 1 * p.val = t.val * 8000 + p.val; rw [e0]; omega
  | ⟨1, _⟩ => show win0_0.index t (1 : Fin 2) * 64 + 1 * k.val = k.val; rw [e1]; omega

/-- The gathered sender rows' block at point `t`, entry (p, k), is the array's entry (8000 t + p, k). -/
theorem read_gs (c : Dev nD) (t : Fin cfg0.N) (p : Fin 8000) (k : Fin 64) :
    iblk0 V c 1 t (ix2 p k) = V c main_v6 (ix2 (n0 := 800000) (n1 := 64) (edgeRowAt t p) k) := by
  show V c main_v6 (((cfg0.win 1).blk t).view.emb (ix2 p k)) = _
  obtain ⟨-, -, e0, e1, -⟩ := edge_row_index t
  refine congrArg (V c main_v6) (funext fun a => Fin.ext ?_)
  match a with
  | ⟨0, _⟩ => show win0_1.index t (0 : Fin 2) * 8000 + 1 * p.val = t.val * 8000 + p.val; rw [e0]; omega
  | ⟨1, _⟩ => show win0_1.index t (1 : Fin 2) * 64 + 1 * k.val = k.val; rw [e1]; omega

/-- The gathered receiver rows' block at point `t`, entry (p, k), is the array's entry (8000 t + p, k). -/
theorem read_gr (c : Dev nD) (t : Fin cfg0.N) (p : Fin 8000) (k : Fin 64) :
    iblk0 V c 2 t (ix2 p k) = V c main_v13 (ix2 (n0 := 800000) (n1 := 64) (edgeRowAt t p) k) := by
  show V c main_v13 (((cfg0.win 2).blk t).view.emb (ix2 p k)) = _
  obtain ⟨-, -, -, -, e0, e1, -⟩ := edge_row_index t
  refine congrArg (V c main_v13) (funext fun a => Fin.ext ?_)
  match a with
  | ⟨0, _⟩ => show win0_2.index t (0 : Fin 2) * 8000 + 1 * p.val = t.val * 8000 + p.val; rw [e0]; omega
  | ⟨1, _⟩ => show win0_2.index t (1 : Fin 2) * 64 + 1 * k.val = k.val; rw [e1]; omega

/-- The first band of the first weight is read whole at every point. -/
theorem read_w0 (c : Dev nD) (t : Fin cfg0.N) (k : Fin 64) (h : Fin 128) :
    iblk0 V c 3 t (ix2 k h) = V c main_v14 (ix2 k h) := by
  show V c main_v14 (((cfg0.win 3).blk t).view.emb (ix2 k h)) = _
  obtain ⟨e0, e1, -⟩ := edge_whole_index t
  refine congrArg (V c main_v14) (funext fun a => Fin.ext ?_)
  match a with
  | ⟨0, _⟩ => show win0_3.index t (0 : Fin 2) * 64 + 1 * k.val = k.val; rw [e0]; omega
  | ⟨1, _⟩ => show win0_3.index t (1 : Fin 2) * 128 + 1 * h.val = h.val; rw [e1]; omega

/-- The second band of the first weight is read whole at every point. -/
theorem read_w1 (c : Dev nD) (t : Fin cfg0.N) (k : Fin 64) (h : Fin 128) :
    iblk0 V c 4 t (ix2 k h) = V c main_v15 (ix2 k h) := by
  show V c main_v15 (((cfg0.win 4).blk t).view.emb (ix2 k h)) = _
  obtain ⟨-, -, e0, e1, -⟩ := edge_whole_index t
  refine congrArg (V c main_v15) (funext fun a => Fin.ext ?_)
  match a with
  | ⟨0, _⟩ => show win0_4.index t (0 : Fin 2) * 64 + 1 * k.val = k.val; rw [e0]; omega
  | ⟨1, _⟩ => show win0_4.index t (1 : Fin 2) * 128 + 1 * h.val = h.val; rw [e1]; omega

/-- The third band of the first weight is read whole at every point. -/
theorem read_w2 (c : Dev nD) (t : Fin cfg0.N) (k : Fin 64) (h : Fin 128) :
    iblk0 V c 5 t (ix2 k h) = V c main_v16 (ix2 k h) := by
  show V c main_v16 (((cfg0.win 5).blk t).view.emb (ix2 k h)) = _
  obtain ⟨-, -, -, -, e0, e1, -⟩ := edge_whole_index t
  refine congrArg (V c main_v16) (funext fun a => Fin.ext ?_)
  match a with
  | ⟨0, _⟩ => show win0_5.index t (0 : Fin 2) * 64 + 1 * k.val = k.val; rw [e0]; omega
  | ⟨1, _⟩ => show win0_5.index t (1 : Fin 2) * 128 + 1 * h.val = h.val; rw [e1]; omega

/-- The hidden layer's bias is read whole at every point. -/
theorem read_b1 (c : Dev nD) (t : Fin cfg0.N) (h : Fin 128) :
    iblk0 V c 6 t (ix1 h) = V c main_arg3 (ix1 h) := by
  show V c main_arg3 (((cfg0.win 6).blk t).view.emb (ix1 h)) = _
  obtain ⟨-, -, -, -, -, -, e0, -⟩ := edge_whole_index t
  refine congrArg (V c main_arg3) (funext fun a => Fin.ext ?_)
  match a with
  | ⟨0, _⟩ => show win0_6.index t (0 : Fin 1) * 128 + 1 * h.val = h.val; rw [e0]; omega

/-- The output layer's weight is read whole at every point. -/
theorem read_w3 (c : Dev nD) (t : Fin cfg0.N) (h : Fin 128) (q : Fin 64) :
    iblk0 V c 7 t (ix2 h q) = V c main_arg4 (ix2 h q) := by
  show V c main_arg4 (((cfg0.win 7).blk t).view.emb (ix2 h q)) = _
  obtain ⟨-, -, -, -, -, -, -, e0, e1, -⟩ := edge_whole_index t
  refine congrArg (V c main_arg4) (funext fun a => Fin.ext ?_)
  match a with
  | ⟨0, _⟩ => show win0_7.index t (0 : Fin 2) * 128 + 1 * h.val = h.val; rw [e0]; omega
  | ⟨1, _⟩ => show win0_7.index t (1 : Fin 2) * 64 + 1 * q.val = q.val; rw [e1]; omega

/-- The output layer's bias is read whole at every point. -/
theorem read_b2 (c : Dev nD) (t : Fin cfg0.N) (q : Fin 64) :
    iblk0 V c 8 t (ix1 q) = V c main_arg5 (ix1 q) := by
  show V c main_arg5 (((cfg0.win 8).blk t).view.emb (ix1 q)) = _
  obtain ⟨-, -, -, -, -, -, -, -, -, e0⟩ := edge_whole_index t
  refine congrArg (V c main_arg5) (funext fun a => Fin.ext ?_)
  match a with
  | ⟨0, _⟩ => show win0_8.index t (0 : Fin 1) * 64 + 1 * q.val = q.val; rw [e0]; omega

/-- Entry (p, q) of the output's block at point `t` is the array's entry (8000 t + p, q). -/
theorem edge_out_emb (t : Fin cfg0.N) (p : Fin 8000) (q : Fin 64) :
    ((cfg0.win 9).blk t).view.emb (ix2 p q) = ix2 (n0 := 800000) (n1 := 64) (edgeRowAt t p) q := by
  obtain ⟨-, -, -, -, -, -, e0, e1⟩ := edge_row_index t
  refine funext fun a => Fin.ext ?_
  match a with
  | ⟨0, _⟩ => show win0_9.index t (0 : Fin 2) * 8000 + 1 * p.val = t.val * 8000 + p.val; rw [e0]; omega
  | ⟨1, _⟩ => show win0_9.index t (1 : Fin 2) * 64 + 1 * q.val = q.val; rw [e1]; omega

/-! ## What each point writes back -/

/-- The whole-array result the region computes. -/
abbrev edgeOut (c : Dev nD) : SE.Idx → EReal :=
  edgeArr (V c main_arg1) (V c main_v6) (V c main_v13) (V c main_v14) (V c main_v15) (V c main_v16)
    (V c main_arg3) (V c main_arg4) (V c main_arg5)

/-- Point `t` writes back its block of the whole-array result: the body loads its nine blocks whole, stores its
    arithmetic's result whole, and each block entry is the array entry the block's place names. -/
theorem edge_flushed (c : Dev nD) (t : Fin cfg0.N) :
    (dat0 (F := Ideal) V c).flushed 9 t = ((cfg0.win 9).blk t).view.read (Elt Ideal) (edgeOut V c) := by
  show (cfg0.win 9).cut (grid0.coords t) ((dat0 V c).after 9 t) = _
  rw [after0_9]
  unfold out0_9
  rw [View.canon_unit_zero edge_hz2]
  simp only [View.ld_unit_zero (S := S8000x64) edge_hz2, View.ld_unit_zero (S := S64x128) edge_hz2, View.ld_unit_zero (S := S128x64) edge_hz2,
    View.ld_unit_zero (S := S128) edge_hz1, View.ld_unit_zero (S := S64) edge_hz1]
  funext y
  obtain ⟨p, q, rfl⟩ : ∃ (p : Fin 8000) (q : Fin 64), y = ix2 p q := ⟨y 0, y 1, eq_ix2 y⟩
  show k0_pay1 (iblk0 V c 0 t) (iblk0 V c 1 t) (iblk0 V c 2 t) (iblk0 V c 3 t) (iblk0 V c 4 t) (iblk0 V c 5 t)
      (iblk0 V c 6 t) (iblk0 V c 7 t) (iblk0 V c 8 t) (ix2 p q) = edgeOut V c (((cfg0.win 9).blk t).view.emb (ix2 p q))
  rw [edge_out_emb]
  refine (pay_apply (iblk0 V c 0 t) (iblk0 V c 1 t) (iblk0 V c 2 t) (iblk0 V c 3 t) (iblk0 V c 4 t) (iblk0 V c 5 t)
      (iblk0 V c 6 t) (iblk0 V c 7 t) (iblk0 V c 8 t) p q).trans ?_
  have e0 : (fun k => iblk0 V c 0 t (ix2 p k)) = fun k => V c main_arg1 (ix2 (n0 := 800000) (n1 := 64) (edgeRowAt t p) k) :=
    funext fun k => read_ef V c t p k
  have e1 : (fun k => iblk0 V c 1 t (ix2 p k)) = fun k => V c main_v6 (ix2 (n0 := 800000) (n1 := 64) (edgeRowAt t p) k) :=
    funext fun k => read_gs V c t p k
  have e2 : (fun k => iblk0 V c 2 t (ix2 p k)) = fun k => V c main_v13 (ix2 (n0 := 800000) (n1 := 64) (edgeRowAt t p) k) :=
    funext fun k => read_gr V c t p k
  have e3 : (fun (k : Fin 64) (h : Fin 128) => iblk0 V c 3 t (ix2 k h)) = fun k h => V c main_v14 (ix2 k h) :=
    funext fun k => funext fun h => read_w0 V c t k h
  have e4 : (fun (k : Fin 64) (h : Fin 128) => iblk0 V c 4 t (ix2 k h)) = fun k h => V c main_v15 (ix2 k h) :=
    funext fun k => funext fun h => read_w1 V c t k h
  have e5 : (fun (k : Fin 64) (h : Fin 128) => iblk0 V c 5 t (ix2 k h)) = fun k h => V c main_v16 (ix2 k h) :=
    funext fun k => funext fun h => read_w2 V c t k h
  have e6 : (fun (h : Fin 128) => iblk0 V c 6 t (ix1 h)) = fun h => V c main_arg3 (ix1 h) :=
    funext fun h => read_b1 V c t h
  have e7 : (fun (h : Fin 128) (q : Fin 64) => iblk0 V c 7 t (ix2 h q)) = fun h q => V c main_arg4 (ix2 h q) :=
    funext fun h => funext fun q => read_w3 V c t h q
  have e8 : (fun (q : Fin 64) => iblk0 V c 8 t (ix1 q)) = fun q => V c main_arg5 (ix1 q) :=
    funext fun q => read_b2 V c t q
  rw [e0, e1, e2, e3, e4, e5, e6, e7, e8]
  rfl

/-! ## The blocks tile the array -/

/-- An index of the array is in point `t`'s block iff each coordinate is in the block's range on its axis. -/
theorem edge_mem_blk (t : Fin cfg0.N) (i : S800000x64.Idx) :
    i ∈ ((cfg0.win 9).blk t).view.set ↔ ∀ a : Fin 2, win0_9.index t a * S8000x64.size a ≤ (i a).val
      ∧ (i a).val < win0_9.index t a * S8000x64.size a + S8000x64.size a := by
  show i ∈ ((View.whole main_v17).slice (win0_9.rect t)).set ↔ _
  rw [View.set_slice_whole, Rect.mem_set_unit]
  exact Iff.rfl

/-- Row `r` of the array is in the block of point `r / 8000`, and every point writes its block back. -/
theorem edge_cover (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  obtain ⟨t, ht⟩ : ∃ t : Fin cfg0.N, t.val = (i 0).val / 8000 :=
    ⟨⟨(i 0).val / 8000, by show (i 0).val / 8000 < 100; omega⟩, rfl⟩
  refine ⟨t, flush0_9 t, ?_⟩
  rw [edge_mem_blk]
  obtain ⟨-, -, -, -, -, -, e0, e1⟩ := edge_row_index t
  intro a
  match a with
  | ⟨0, _⟩ =>
    show win0_9.index t (0 : Fin 2) * 8000 ≤ (i 0).val ∧ (i 0).val < win0_9.index t (0 : Fin 2) * 8000 + 8000
    rw [e0, ht]; omega
  | ⟨1, _⟩ =>
    show win0_9.index t (1 : Fin 2) * 64 ≤ (i 1).val ∧ (i 1).val < win0_9.index t (1 : Fin 2) * 64 + 64
    rw [e1]; omega

/-- The edge region leaves in its output array every edge's updated features, computed from the arrays the region
    finds at its entry. -/
theorem edge_arr (c : Dev nD) :
    (dat0 (F := Ideal) V c).arrAt 9 cfg0.N
      = edgeArr (V c main_arg1) (V c main_v6) (V c main_v13) (V c main_v14) (V c main_v15) (V c main_v16)
          (V c main_arg3) (V c main_arg4) (V c main_arg5) :=
  (dat0 (F := Ideal) V c).arrAt_eq_of_cover 9 (edgeOut V c) (fun t _ => edge_flushed V c t) edge_cover

end Cert.KernelIdeal.EdgeValue

end
-- ==== Proof.NodeAux.lean ====
/-
  The node perceptron's arithmetic, read at one entry of a block.

  The body of the node region forms, from two 5000×64 blocks, two 64×128 bands, a bias of 128, a 128×64 matrix and a
  bias of 64, the block `max (x0·W0 + x1·W1 + b1) 0 · W3 + b2`. Read at entry `(p, q)` this is the perceptron of row
  `p` of the two blocks: each matrix product at an index is a finite sum over its contracted axis, each bias is
  its vector laid along every row, and every change of float format is the identity on the extended reals.
-/
import proofs.«111756_j40140764348810_1_alg».proof.Proof.Gen.KernelIdeal.Skeleton
import proofs.«111756_j40140764348810_1_alg».proof.Proof.Mlp
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Cert.Mlp
open Idealize.ShloMosaic Idealize.ShloMosaic.TcCoe Idealize.ShloMosaic.ValueIdx Idealize.SL.Sem

/-! ## The two matrix products at an index

Both products contract the left operand's axis 1 with the right operand's axis 0: at the output index `(p, h)` the
left operand is read at `(p, k)` and the right one at `(k, h)`, `k` running over the contracted axis. -/

theorem lhs_hid_0 (i : S5000x128.Idx) (q : dot_S5000x64_S64x128_S5000x128_1_0_0_1_n_n.contr.Idx) :
    (dot_S5000x64_S64x128_S5000x128_1_0_0_1_n_n.lhsIdx i q 0).val = (i 0).val := by
  unfold DotDims.lhsIdx
  rw [dif_neg (show ¬(0 : Fin S5000x64.rank) ∈ dot_S5000x64_S64x128_S5000x128_1_0_0_1_n_n.lhsBatch by decide),
    dif_pos (show (0 : Fin S5000x64.rank) ∈ dot_S5000x64_S64x128_S5000x128_1_0_0_1_n_n.lhsNonContracting by decide)]
  rfl
theorem lhs_hid_1 (i : S5000x128.Idx) (q : dot_S5000x64_S64x128_S5000x128_1_0_0_1_n_n.contr.Idx) :
    (dot_S5000x64_S64x128_S5000x128_1_0_0_1_n_n.lhsIdx i q 1).val = (q ⟨0, by decide⟩).val :=
  dot_S5000x64_S64x128_S5000x128_1_0_0_1_n_n.lhsIdx_val_of_single rfl i q
theorem rhs_hid_0 (i : S5000x128.Idx) (q : dot_S5000x64_S64x128_S5000x128_1_0_0_1_n_n.contr.Idx) :
    (dot_S5000x64_S64x128_S5000x128_1_0_0_1_n_n.rhsIdx i q 0).val = (q ⟨0, by decide⟩).val :=
  dot_S5000x64_S64x128_S5000x128_1_0_0_1_n_n.rhsIdx_val_of_single rfl i q
theorem rhs_hid_1 (i : S5000x128.Idx) (q : dot_S5000x64_S64x128_S5000x128_1_0_0_1_n_n.contr.Idx) :
    (dot_S5000x64_S64x128_S5000x128_1_0_0_1_n_n.rhsIdx i q 1).val = (i 1).val := by
  unfold DotDims.rhsIdx
  rw [dif_neg (show ¬(1 : Fin S64x128.rank) ∈ dot_S5000x64_S64x128_S5000x128_1_0_0_1_n_n.rhsBatch by decide),
    dif_pos (show (1 : Fin S64x128.rank) ∈ dot_S5000x64_S64x128_S5000x128_1_0_0_1_n_n.rhsNonContracting by decide)]
  rfl

/-- A 5000×64 block times a 64×128 matrix, accumulated into zero: entry `(p, h)` is the sum over `k` of the
    products of row `p` and column `h`. -/
theorem hid_matmul_apply (x : FVec Ideal S5000x64 .bf16) (w : FVec Ideal S64x128 .bf16) (p : Fin 5000) (h : Fin 128) :
    matmul dot_S5000x64_S64x128_S5000x128_1_0_0_1_n_n none x w (constant (F := Ideal) S5000x128 .f32 0x00000000#32) (ix2 p h)
      = ∑ k : Fin 64, x (ix2 p k) * w (ix2 k h) := by
  show FloatOps.matmul dot_S5000x64_S64x128_S5000x128_1_0_0_1_n_n none x w (constant (F := Ideal) S5000x128 .f32 0x00000000#32) (ix2 p h) = _
  rw [Ideal.matmul_constant_zero_apply, ← Equiv.sum_comp (contrEquiv1 dot_S5000x64_S64x128_S5000x128_1_0_0_1_n_n 64 rfl rfl).symm]
  refine Finset.sum_congr rfl fun k _ => ?_
  have hk := contrEquiv1_symm_val dot_S5000x64_S64x128_S5000x128_1_0_0_1_n_n 64 rfl rfl k
  have el : dot_S5000x64_S64x128_S5000x128_1_0_0_1_n_n.lhsIdx (ix2 p h) ((contrEquiv1 dot_S5000x64_S64x128_S5000x128_1_0_0_1_n_n 64 rfl rfl).symm k) = ix2 p k := funext fun a => Fin.ext (by
    match a with
    | ⟨0, _⟩ => exact lhs_hid_0 _ _
    | ⟨1, _⟩ => exact (lhs_hid_1 _ _).trans hk)
  have er : dot_S5000x64_S64x128_S5000x128_1_0_0_1_n_n.rhsIdx (ix2 p h) ((contrEquiv1 dot_S5000x64_S64x128_S5000x128_1_0_0_1_n_n 64 rfl rfl).symm k) = ix2 k h := funext fun a => Fin.ext (by
    match a with
    | ⟨0, _⟩ => exact (rhs_hid_0 _ _).trans hk
    | ⟨1, _⟩ => exact rhs_hid_1 _ _)
  rw [el, er]

theorem lhs_out_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl
theorem lhs_out_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_out_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_out_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- A 5000×128 block times a 128×64 matrix, accumulated into zero: entry `(p, q)` is the sum over `h`. -/
theorem out_matmul_apply (x : FVec Ideal S5000x128 .bf16) (w : FVec Ideal S128x64 .bf16) (p : Fin 5000) (q : Fin 64) :
    matmul dot_S5000x128_S128x64_S5000x64_1_0_0_1_n_n none x w (constant (F := Ideal) S5000x64 .f32 0x00000000#32) (ix2 p q)
      = ∑ h : Fin 128, x (ix2 p h) * w (ix2 h q) := by
  show FloatOps.matmul dot_S5000x128_S128x64_S5000x64_1_0_0_1_n_n none x w (constant (F := Ideal) S5000x64 .f32 0x00000000#32) (ix2 p q) = _
  rw [Ideal.matmul_constant_zero_apply, ← Equiv.sum_comp (contrEquiv1 dot_S5000x128_S128x64_S5000x64_1_0_0_1_n_n 128 rfl rfl).symm]
  refine Finset.sum_congr rfl fun h _ => ?_
  have hk := contrEquiv1_symm_val dot_S5000x128_S128x64_S5000x64_1_0_0_1_n_n 128 rfl rfl h
  have el : dot_S5000x128_S128x64_S5000x64_1_0_0_1_n_n.lhsIdx (ix2 p q) ((contrEquiv1 dot_S5000x128_S128x64_S5000x64_1_0_0_1_n_n 128 rfl rfl).symm h) = ix2 p h := funext fun a => Fin.ext (by
    match a with
    | ⟨0, _⟩ => exact lhs_out_0 _ _
    | ⟨1, _⟩ => exact (lhs_out_1 _ _).trans hk)
  have er : dot_S5000x128_S128x64_S5000x64_1_0_0_1_n_n.rhsIdx (ix2 p q) ((contrEquiv1 dot_S5000x128_S128x64_S5000x64_1_0_0_1_n_n 128 rfl rfl).symm h) = ix2 h q := funext fun a => Fin.ext (by
    match a with
    | ⟨0, _⟩ => exact (rhs_out_0 _ _).trans hk
    | ⟨1, _⟩ => exact rhs_out_1 _ _)
  rw [el, er]

/-! ## The biases: a vector laid along every row of the block -/

/-- The hidden bias, viewed as one row and repeated over the 5000 rows, reads its entry `h` at `(p, h)`. -/
theorem bias_hid_apply (b : Vec Ideal S128 .f32) (p : Fin 5000) (h : Fin 128) :
    broadcastTo S5000x128 (shapeCast S1x128 b shapeCasts_S128_S1x128) broadcasts_S1x128_S5000x128 (ix2 p h) = b (ix1 h) :=
  (broadcastTo_1b_ab_apply _ _ p h).trans (shapeCast_a_1a_apply _ _ 0 h)

/-- The output bias, viewed as one row and repeated over the 5000 rows, reads its entry `q` at `(p, q)`. -/
theorem bias_out_apply (b : Vec Ideal S64 .f32) (p : Fin 5000) (q : Fin 64) :
    broadcastTo S5000x64 (shapeCast S1x64 b shapeCasts_S64_S1x64) broadcasts_S1x64_S5000x64 (ix2 p q) = b (ix1 q) :=
  (broadcastTo_1b_ab_apply _ _ p q).trans (shapeCast_a_1a_apply _ _ 0 q)

/-! ## The body's arithmetic at an index -/

/-- Entry `(p, q)` of what the body stores is the node perceptron on row `p` of the two input blocks. -/
theorem pay_apply (x0 x1 : Vec Ideal S5000x64 .f32) (x2 x3 : Vec Ideal S64x128 .f32) (x4 : Vec Ideal S128 .f32)
    (x5 : Vec Ideal S128x64 .f32) (x6 : Vec Ideal S64 .f32) (p : Fin 5000) (q : Fin 64) :
    k1_pay1 (F := Ideal) x0 x1 x2 x3 x4 x5 x6 (ix2 p q)
      = nodeRow (fun k => x0 (ix2 p k)) (fun k => x1 (ix2 p k)) (fun k h => x2 (ix2 k h)) (fun k h => x3 (ix2 k h))
          (fun h => x4 (ix1 h)) (fun h r => x5 (ix2 h r)) (fun r => x6 (ix1 r)) q := by
  unfold k1_pay1
  rw [addf_apply, out_matmul_apply, bias_out_apply]
  unfold nodeRow outLayer rowDot
  refine congrArg (· + x6 (ix1 q)) (Finset.sum_congr rfl fun h _ => ?_)
  rw [truncf_apply, truncf_apply, maximumf_apply, addf_apply, addf_apply, hid_matmul_apply, hid_matmul_apply,
    bias_hid_apply, broadcast_apply]
  simp only [truncf_apply, shapeCast_self]
  rfl

/-- The perceptron of a row depends only on the values of its arguments. -/
theorem nodeRow_congr {x0 x0' x1 x1' : Fin 64 → EReal} {w0 w0' w1 w1' : Fin 64 → Fin 128 → EReal}
    {b1 b1' : Fin 128 → EReal} {w3 w3' : Fin 128 → Fin 64 → EReal} {b2 b2' : Fin 64 → EReal} {q q' : Fin 64}
    (h0 : ∀ k, x0 k = x0' k) (h1 : ∀ k, x1 k = x1' k) (h2 : ∀ k h, w0 k h = w0' k h) (h3 : ∀ k h, w1 k h = w1' k h)
    (h4 : ∀ h, b1 h = b1' h) (h5 : ∀ h r, w3 h r = w3' h r) (h6 : ∀ r, b2 r = b2' r) (hq : q = q') :
    nodeRow x0 x1 w0 w1 b1 w3 b2 q = nodeRow x0' x1' w0' w1' b1' w3' b2' q' := by
  obtain rfl : x0 = x0' := funext h0
  obtain rfl : x1 = x1' := funext h1
  obtain rfl : w0 = w0' := funext fun k => funext (h2 k)
  obtain rfl : w1 = w1' := funext fun k => funext (h3 k)
  obtain rfl : b1 = b1' := funext h4
  obtain rfl : w3 = w3' := funext fun h => funext (h5 h)
  obtain rfl : b2 = b2' := funext h6
  subst hq
  rfl

end Cert.KernelIdeal.NodeValue

end
-- ==== Proof.Node.lean ====
import proofs.«111756_j40140764348810_1_alg».proof.Proof.Gen.KernelIdeal.Frame
import proofs.«111756_j40140764348810_1_alg».proof.Proof.Mlp
import proofs.«111756_j40140764348810_1_alg».proof.Proof.NodeAux
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.NodeValue

open Cert.KernelIdeal Cert.KernelIdeal.Gen Cert.Mlp
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Where each window's block lies at a grid point

The grid has ten points. At point `t` the three row-blocked windows (the aggregated messages, the node features, the
output) hold rows `5000 t … 5000 t + 4999`, all 64 columns; the weights and biases are whole at every point. -/

theorem hz2 : (![0, 0] : Fin 2 → Nat) = fun _ => 0 := funext fun a => by fin_cases a <;> rfl
theorem hz1 : (![0] : Fin 1 → Nat) = fun _ => 0 := funext fun a => by fin_cases a; rfl

/-- The block index of every window at every grid point, decided over the ten points. -/
theorem idx_facts : ∀ t : Fin cfg1.N,
    win1_7.index t (0 : Fin 2) = t.val ∧ win1_7.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0 :=
  (by decide +kernel : ∀ t : Fin grid1.N, _)

/-- Row `p` of the block of aggregated messages at point `t` is the row of the array that the output block's row `p`
    lies on. -/
theorem read_agg (c : Dev nD) (t : Fin cfg1.N) (p : Fin 5000) (q k : Fin 64) :
    iblk1 V c 0 t (ix2 p k)
      = V c main_v20 (ix2 (n0 := 50000) (n1 := 64) ((((cfg1.win 7).blk t).view.emb (ix2 p q)) 0) k) := by
  obtain ⟨e70, e71, e00, e01, -⟩ := idx_facts t
  show V c main_v20 (((cfg1.win 0).blk t).view.emb (ix2 p k)) = _
  refine congrArg (V c main_v20) (funext fun a => Fin.ext ?_)
  match a with
  | ⟨0, _⟩ =>
    show win1_0.index t (0 : Fin 2) * 5000 + 1 * p.val = win1_7.index t (0 : Fin 2) * 5000 + 1 * p.val
    omega
  | ⟨1, _⟩ =>
    show win1_0.index t (1 : Fin 2) * 64 + 1 * k.val = k.val
    omega

/-- The same for the block of node features. -/
theorem read_feat (c : Dev nD) (t : Fin cfg1.N) (p : Fin 5000) (q k : Fin 64) :
    iblk1 V c 1 t (ix2 p k)
      = V c main_arg0 (ix2 (n0 := 50000) (n1 := 64) ((((cfg1.win 7).blk t).view.emb (ix2 p q)) 0) k) := by
  obtain ⟨e70, e71, -, -, e10, e11, -⟩ := idx_facts t
  show V c main_arg0 (((cfg1.win 1).blk t).view.emb (ix2 p k)) = _
  refine congrArg (V c main_arg0) (funext fun a => Fin.ext ?_)
  match a with
  | ⟨0, _⟩ =>
    show win1_1.index t (0 : Fin 2) * 5000 + 1 * p.val = win1_7.index t (0 : Fin 2) * 5000 + 1 * p.val
    omega
  | ⟨1, _⟩ =>
    show win1_1.index t (1 : Fin 2) * 64 + 1 * k.val = k.val
    omega

/-- The first band of the hidden weight is read whole at every point. -/
theorem read_w0 (c : Dev nD) (t : Fin cfg1.N) (k : Fin 64) (h : Fin 128) :
    iblk1 V c 2 t (ix2 k h) = V c main_v21 (ix2 k h) := by
  obtain ⟨-, -, -, -, -, -, e20, e21, -⟩ := idx_facts t
  show V c main_v21 (((cfg1.win 2).blk t).view.emb (ix2 k h)) = _
  refine congrArg (V c main_v21) (funext fun a => Fin.ext ?_)
  match a with
  | ⟨0, _⟩ =>
    show win1_2.index t (0 : Fin 2) * 64 + 1 * k.val = k.val
    omega
  | ⟨1, _⟩ =>
    show win1_2.index t (1 : Fin 2) * 128 + 1 * h.val = h.val
    omega

/-- The second band of the hidden weight is read whole at every point. -/
theorem read_w1 (c : Dev nD) (t : Fin cfg1.N) (k : Fin 64) (h : Fin 128) :
    iblk1 V c 3 t (ix2 k h) = V c main_v22 (ix2 k h) := by
  obtain ⟨-, -, -, -, -, -, -, -, e30, e31, -⟩ := idx_facts t
  show V c main_v22 (((cfg1.win 3).blk t).view.emb (ix2 k h)) = _
  refine congrArg (V c main_v22) (funext fun a => Fin.ext ?_)
  match a with
  | ⟨0, _⟩ =>
    show win1_3.index t (0 : Fin 2) * 64 + 1 * k.val = k.val
    omega
  | ⟨1, _⟩ =>
    show win1_3.index t (1 : Fin 2) * 128 + 1 * h.val = h.val
    omega

/-- The hidden bias is read whole at every point. -/
theorem read_b1 (c : Dev nD) (t : Fin cfg1.N) (h : Fin 128) :
    iblk1 V c 4 t (ix1 h) = V c main_arg7 (ix1 h) := by
  obtain ⟨-, -, -, -, -, -, -, -, -, -, e40, -⟩ := idx_facts t
  show V c main_arg7 (((cfg1.win 4).blk t).view.emb (ix1 h)) = _
  refine congrArg (V c main_arg7) (funext fun a => Fin.ext ?_)
  match a with
  | ⟨0, _⟩ =>
    show win1_4.index t (0 : Fin 1) * 128 + 1 * h.val = h.val
    omega

/-- The output weight is read whole at every point. -/
theorem read_w3 (c : Dev nD) (t : Fin cfg1.N) (h : Fin 128) (r : Fin 64) :
    iblk1 V c 5 t (ix2 h r) = V c main_arg8 (ix2 h r) := by
  obtain ⟨-, -, -, -, -, -, -, -, -, -, -, e50, e51, -⟩ := idx_facts t
  show V c main_arg8 (((cfg1.win 5).blk t).view.emb (ix2 h r)) = _
  refine congrArg (V c main_arg8) (funext fun a => Fin.ext ?_)
  match a with
  | ⟨0, _⟩ =>
    show win1_5.index t (0 : Fin 2) * 128 + 1 * h.val = h.val
    omega
  | ⟨1, _⟩ =>
    show win1_5.index t (1 : Fin 2) * 64 + 1 * r.val = r.val
    omega

/-- The output bias is read whole at every point. -/
theorem read_b2 (c : Dev nD) (t : Fin cfg1.N) (r : Fin 64) :
    iblk1 V c 6 t (ix1 r) = V c main_arg9 (ix1 r) := by
  obtain ⟨-, -, -, -, -, -, -, -, -, -, -, -, -, e60⟩ := idx_facts t
  show V c main_arg9 (((cfg1.win 6).blk t).view.emb (ix1 r)) = _
  refine congrArg (V c main_arg9) (funext fun a => Fin.ext ?_)
  match a with
  | ⟨0, _⟩ =>
    show win1_6.index t (0 : Fin 1) * 64 + 1 * r.val = r.val
    omega

/-- The column of an entry of the output block is its column in the array. -/
theorem out_col (t : Fin cfg1.N) (p : Fin 5000) (q : Fin 64) :
    q = ((((cfg1.win 7).blk t).view.emb (ix2 p q)) 1 : Fin 64) := by
  obtain ⟨e70, e71, -⟩ := idx_facts t
  refine Fin.ext ?_
  show q.val = win1_7.index t (1 : Fin 2) * 64 + 1 * q.val
  omega

/-! ## What a grid point writes back -/

/-- What point `t` writes back to the output array is block `t` of the perceptron applied to the arrays the region
    finds at its entry. -/
theorem flushed_eq (c : Dev nD) (t : Fin cfg1.N) :
    (dat1 (F := Ideal) V c).flushed 7 t
      = ((cfg1.win 7).blk t).view.read (Elt Ideal)
          (nodeArr (V c main_v20) (V c main_arg0) (V c main_v21) (V c main_v22)
            (V c main_arg7) (V c main_arg8) (V c main_arg9)) := by
  show (cfg1.win 7).cut (grid1.coords t) ((dat1 (F := Ideal) V c).after 7 t) = _
  rw [after1_7]
  unfold out1_7
  rw [View.canon_unit_zero hz2]
  simp only [View.ld_unit_zero (S := S5000x64) hz2, View.ld_unit_zero (S := S64x128) hz2,
    View.ld_unit_zero (S := S128) hz1, View.ld_unit_zero (S := S128x64) hz2, View.ld_unit_zero (S := S64) hz1]
  funext y
  obtain ⟨p, q, rfl⟩ : ∃ (p : Fin 5000) (q : Fin 64), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t)
      (iblk1 V c 6 t) (ix2 p q)
    = nodeArr (V c main_v20) (V c main_arg0) (V c main_v21) (V c main_v22) (V c main_arg7) (V c main_arg8)
        (V c main_arg9) (((cfg1.win 7).blk t).view.emb (ix2 p q))
  refine (pay_apply (iblk1 V c 0 t) (iblk1 V c 1 t) (iblk1 V c 2 t) (iblk1 V c 3 t) (iblk1 V c 4 t) (iblk1 V c 5 t)
    (iblk1 V c 6 t) p q).trans ?_
  exact nodeRow_congr (fun k => read_agg V c t p q k) (fun k => read_feat V c t p q k) (fun k h => read_w0 V c t k h)
    (fun k h => read_w1 V c t k h) (fun h => read_b1 V c t h) (fun h r => read_w3 V c t h r) (fun r => read_b2 V c t r)
    (out_col t p q)

/-! ## The blocks cover the array -/

/-- An index of the array is in point `t`'s block iff each coordinate is in the block's range on its axis. -/
theorem mem_blk (t : Fin cfg1.N) (i : S50000x64.Idx) :
    i ∈ ((cfg1.win 7).blk t).view.set ↔ ∀ a : Fin 2, win1_7.index t a * S5000x64.size a ≤ (i a).val
      ∧ (i a).val < win1_7.index t a * S5000x64.size a + S5000x64.size a := by
  show i ∈ ((View.whole main_v23).slice (win1_7.rect t)).set ↔ _
  rw [View.set_slice_whole, Rect.mem_set_unit]
  exact Iff.rfl

/-- Row `r` of the array lies in the block of point `r / 5000`, and every point writes its block back. -/
theorem cover (i : S50000x64.Idx) :
    ∃ t : Fin cfg1.N, (cfg1.win 7).flush t = true ∧ i ∈ ((cfg1.win 7).blk t).view.set := by
  have hi0 : (i 0).val < 50000 := idx2_lt0 i
  have hi1 : (i 1).val < 64 := idx2_lt1 i
  have hN : cfg1.N = 10 := rfl
  have ht : (i 0).val / 5000 < cfg1.N := by rw [hN]; omega
  obtain ⟨e70, e71, -⟩ := idx_facts ⟨(i 0).val / 5000, ht⟩
  have e70' : win1_7.index ⟨(i 0).val / 5000, ht⟩ (0 : Fin 2) = (i 0).val / 5000 := e70
  refine ⟨⟨(i 0).val / 5000, ht⟩, flush1_7 _, ?_⟩
  rw [mem_blk]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    omega
  | ⟨1, _⟩ =>
    show win1_7.index ⟨(i 0).val / 5000, ht⟩ (1 : Fin 2) * 64 ≤ (i 1).val
      ∧ (i 1).val < win1_7.index ⟨(i 0).val / 5000, ht⟩ (1 : Fin 2) * 64 + 64
    omega

/-- The node region leaves in its output array every node's updated features, computed from the arrays the region
    finds at its entry. -/
theorem node_arr (c : Dev nD) :
    (dat1 (F := Ideal) V c).arrAt 7 cfg1.N
      = nodeArr (V c main_v20) (V c main_arg0) (V c main_v21) (V c main_v22)
          (V c main_arg7) (V c main_arg8) (V c main_arg9) :=
  (dat1 (F := Ideal) V c).arrAt_eq_of_cover 7 _ (fun t _ => flushed_eq V c t) cover

end Cert.KernelIdeal.NodeValue

end
-- ==== Proof.KernelValue.lean ====
/-
  What the two result arrays of the program hold after the run, as functions of the launch memory.

  The program is: a few host operations (index normalisation, two row gathers of the node table, three bands cut
  out of the first edge weight), the edge region, a scatter-add of the edge results into a zero node table and two
  bands cut out of the first node weight, the node region. The run's boundaries are a fold through these pieces;
  here each array a region reads is walked back through the fold to the launch memory, and each region's output is
  the row-by-row perceptron of what the region reads.
-/
import proofs.«111756_j40140764348810_1_alg».proof.Proof.Gen.KernelIdeal.Frame
import proofs.«111756_j40140764348810_1_alg».proof.Proof.Mlp
import proofs.«111756_j40140764348810_1_alg».proof.Proof.Edge
import proofs.«111756_j40140764348810_1_alg».proof.Proof.Node
import Idealize.ShloMosaic.Lib.Pipeline.Value
import Idealize.ShloMosaic.Lib.ValueIdx
import Idealize.ShloMosaic.Lib.StableHlo.Run

set_option maxRecDepth 16384

noncomputable section

namespace Cert.KernelIdeal.HostValue

open Cert.KernelIdeal Cert.KernelIdeal.Gen Cert.Mlp
open Idealize.ShloMosaic Idealize.ShloMosaic.TcCoe Idealize.ShloMosaic.ValueIdx Idealize.SL.Sem
open Idealize.ShloMosaic.StableHlo

/-- The rows of the node table that an index vector names, a negative index counted from the end: the host's own
    normalisation and row gather, carried as one function (both programs apply exactly these operations). -/
def rowsOf (x : (⟨S50000x64, .f32⟩ : BufTy).Contents (Elt Ideal)) (a : (⟨S800000, .i32⟩ : BufTy).Contents (Elt Ideal)) :
    (⟨S800000x64, .f32⟩ : BufTy).Contents (Elt Ideal) :=
  Host.gather gather_S50000x64_S800000x1_S800000x64_1_0_n_n_0_1_164 x
    (broadcastInDim S800000x1 ![0] bcast_S800000_S800000x1_0
      (select (cmpi .slt a (broadcastInDim S800000 ![] bcast_S_S800000 (constantI S_ 32 0#32)))
        (addi a (broadcastInDim S800000 ![] bcast_S_S800000 (constantI S_ 32 50000#32))) a))

/-- The per-node sums of the edge rows, each edge added to the node its index names: the host's scatter-add into a
    zero table, carried as one function. -/
def sumInto (a : (⟨S800000, .i32⟩ : BufTy).Contents (Elt Ideal)) (u : (⟨S800000x64, .f32⟩ : BufTy).Contents (Elt Ideal)) :
    (⟨S50000x64, .f32⟩ : BufTy).Contents (Elt Ideal) :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 a) u

variable (m : (ℓ : Loc nD τ sig) → Buf (Elt Ideal) ℓ) (ρ : Dev nD → PrngReg)

/-! ## A slice of 64 rows of a weight is a band of it -/

theorem slice192_0 (W : (⟨S192x128, .f32⟩ : BufTy).Contents (Elt Ideal)) :
    extractStridedSlice S64x128 ![0, 0] W slices_S192x128_S64x128_0_0 = band (R := 192) 0 (by omega) W := by
  funext j
  refine extractStridedSlice_apply _ W _ j _ fun a => ?_
  match a with
  | ⟨0, _⟩ => rfl
  | ⟨1, _⟩ => show (j 1).val = 0 + (j 1).val; omega

theorem slice192_64 (W : (⟨S192x128, .f32⟩ : BufTy).Contents (Elt Ideal)) :
    extractStridedSlice S64x128 ![64, 0] W slices_S192x128_S64x128_64_0 = band (R := 192) 64 (by omega) W := by
  funext j
  refine extractStridedSlice_apply _ W _ j _ fun a => ?_
  match a with
  | ⟨0, _⟩ => rfl
  | ⟨1, _⟩ => show (j 1).val = 0 + (j 1).val; omega

theorem slice192_128 (W : (⟨S192x128, .f32⟩ : BufTy).Contents (Elt Ideal)) :
    extractStridedSlice S64x128 ![128, 0] W slices_S192x128_S64x128_128_0 = band (R := 192) 128 (by omega) W := by
  funext j
  refine extractStridedSlice_apply _ W _ j _ fun a => ?_
  match a with
  | ⟨0, _⟩ => rfl
  | ⟨1, _⟩ => show (j 1).val = 0 + (j 1).val; omega

theorem slice128_0 (W : (⟨S128x128, .f32⟩ : BufTy).Contents (Elt Ideal)) :
    extractStridedSlice S64x128 ![0, 0] W slices_S128x128_S64x128_0_0 = band (R := 128) 0 (by omega) W := by
  funext j
  refine extractStridedSlice_apply _ W _ j _ fun a => ?_
  match a with
  | ⟨0, _⟩ => rfl
  | ⟨1, _⟩ => show (j 1).val = 0 + (j 1).val; omega

theorem slice128_64 (W : (⟨S128x128, .f32⟩ : BufTy).Contents (Elt Ideal)) :
    extractStridedSlice S64x128 ![64, 0] W slices_S128x128_S64x128_64_0 = band (R := 128) 64 (by omega) W := by
  funext j
  refine extractStridedSlice_apply _ W _ j _ fun a => ?_
  match a with
  | ⟨0, _⟩ => rfl
  | ⟨1, _⟩ => show (j 1).val = 0 + (j 1).val; omega

/-! ## The edge region's entry: each array it reads, from the launch memory -/

theorem V1_arg1 (c : Dev nD) : V1 m ρ c main_arg1 = m ((c : Thread nD τ).loc main_arg1) := by
  show StableHlo.after hostOps0 (W0 m ρ c) (Proc.devRef .tc main_arg1) = _
  after_results <;> rfl
theorem V1_arg3 (c : Dev nD) : V1 m ρ c main_arg3 = m ((c : Thread nD τ).loc main_arg3) := by
  show StableHlo.after hostOps0 (W0 m ρ c) (Proc.devRef .tc main_arg3) = _
  after_results <;> rfl
theorem V1_arg4 (c : Dev nD) : V1 m ρ c main_arg4 = m ((c : Thread nD τ).loc main_arg4) := by
  show StableHlo.after hostOps0 (W0 m ρ c) (Proc.devRef .tc main_arg4) = _
  after_results <;> rfl
theorem V1_arg5 (c : Dev nD) : V1 m ρ c main_arg5 = m ((c : Thread nD τ).loc main_arg5) := by
  show StableHlo.after hostOps0 (W0 m ρ c) (Proc.devRef .tc main_arg5) = _
  after_results <;> rfl
theorem V1_v6 (c : Dev nD) :
    V1 m ρ c main_v6 = rowsOf (m ((c : Thread nD τ).loc main_arg0)) (m ((c : Thread nD τ).loc main_arg10)) := by
  show StableHlo.after hostOps0 (W0 m ρ c) (Proc.devRef .tc main_v6) = _
  after_results <;> rfl
theorem V1_v13 (c : Dev nD) :
    V1 m ρ c main_v13 = rowsOf (m ((c : Thread nD τ).loc main_arg0)) (m ((c : Thread nD τ).loc main_arg11)) := by
  show StableHlo.after hostOps0 (W0 m ρ c) (Proc.devRef .tc main_v13) = _
  after_results <;> rfl
theorem V1_v14 (c : Dev nD) : V1 m ρ c main_v14 = band (R := 192) 0 (by omega) (m ((c : Thread nD τ).loc main_arg2)) := by
  refine Eq.trans ?_ (slice192_0 _)
  show StableHlo.after hostOps0 (W0 m ρ c) (Proc.devRef .tc main_v14) = _
  after_results <;> rfl
theorem V1_v15 (c : Dev nD) : V1 m ρ c main_v15 = band (R := 192) 64 (by omega) (m ((c : Thread nD τ).loc main_arg2)) := by
  refine Eq.trans ?_ (slice192_64 _)
  show StableHlo.after hostOps0 (W0 m ρ c) (Proc.devRef .tc main_v15) = _
  after_results <;> rfl
theorem V1_v16 (c : Dev nD) : V1 m ρ c main_v16 = band (R := 192) 128 (by omega) (m ((c : Thread nD τ).loc main_arg2)) := by
  refine Eq.trans ?_ (slice192_128 _)
  show StableHlo.after hostOps0 (W0 m ρ c) (Proc.devRef .tc main_v16) = _
  after_results <;> rfl

/-- The edge result array as the launch memory's function: the edge perceptron of the edge features, the gathered
    sender and receiver rows and the parameters. -/
def edgeOf (c : Dev nD) : SE.Idx → EReal :=
  edgeArr (m ((c : Thread nD τ).loc main_arg1))
    (rowsOf (m ((c : Thread nD τ).loc main_arg0)) (m ((c : Thread nD τ).loc main_arg10)))
    (rowsOf (m ((c : Thread nD τ).loc main_arg0)) (m ((c : Thread nD τ).loc main_arg11)))
    (band (R := 192) 0 (by omega) (m ((c : Thread nD τ).loc main_arg2)))
    (band (R := 192) 64 (by omega) (m ((c : Thread nD τ).loc main_arg2)))
    (band (R := 192) 128 (by omega) (m ((c : Thread nD τ).loc main_arg2)))
    (m ((c : Thread nD τ).loc main_arg3)) (m ((c : Thread nD τ).loc main_arg4)) (m ((c : Thread nD τ).loc main_arg5))

/-- At the edge region's exit its output array holds the edge perceptron's values. -/
theorem W2_v17 (c : Dev nD) : W2 m ρ c (Proc.devRef .tc main_v17) = edgeOf m c := by
  refine (W2_arr m ρ c 9).trans ?_
  rw [EdgeValue.edge_arr (V1 m ρ) c, V1_arg1, V1_v6, V1_v13, V1_v14, V1_v15, V1_v16, V1_arg3, V1_arg4, V1_arg5]
  rfl

/-- An argument array is untouched up to the edge region's exit. -/
theorem W2_arg0 (c : Dev nD) : W2 m ρ c (Proc.devRef .tc main_arg0) = m ((c : Thread nD τ).loc main_arg0) :=
  (W2_of_ne m ρ c main_arg0 (by decide)).trans (by
    show StableHlo.after hostOps0 (W0 m ρ c) (Proc.devRef .tc main_arg0) = _
    after_results <;> rfl)
theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)
theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)
theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)
theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results <;> rfl)

/-! ## The node region's entry -/

theorem V3_arg0 (c : Dev nD) : V3 m ρ c main_arg0 = m ((c : Thread nD τ).loc main_arg0) := by
  refine Eq.trans ?_ (W2_arg0 m ρ c)
  show StableHlo.after hostOps1 (W2 m ρ c) (Proc.devRef .tc main_arg0) = _
  after_results <;> rfl
theorem V3_arg7 (c : Dev nD) : V3 m ρ c main_arg7 = m ((c : Thread nD τ).loc main_arg7) := by
  refine Eq.trans ?_ (W2_arg7 m ρ c)
  show StableHlo.after hostOps1 (W2 m ρ c) (Proc.devRef .tc main_arg7) = _
  after_results <;> rfl
theorem V3_arg8 (c : Dev nD) : V3 m ρ c main_arg8 = m ((c : Thread nD τ).loc main_arg8) := by
  refine Eq.trans ?_ (W2_arg8 m ρ c)
  show StableHlo.after hostOps1 (W2 m ρ c) (Proc.devRef .tc main_arg8) = _
  after_results <;> rfl
theorem V3_arg9 (c : Dev nD) : V3 m ρ c main_arg9 = m ((c : Thread nD τ).loc main_arg9) := by
  refine Eq.trans ?_ (W2_arg9 m ρ c)
  show StableHlo.after hostOps1 (W2 m ρ c) (Proc.devRef .tc main_arg9) = _
  after_results <;> rfl
theorem V3_v20 (c : Dev nD) : V3 m ρ c main_v20 = sumInto (m ((c : Thread nD τ).loc main_arg11)) (edgeOf m c) := by
  have h : V3 m ρ c main_v20 = sumInto (W2 m ρ c (Proc.devRef .tc main_arg11)) (W2 m ρ c (Proc.devRef .tc main_v17)) := by
    show StableHlo.after hostOps1 (W2 m ρ c) (Proc.devRef .tc main_v20) = _
    after_results <;> rfl
  rw [h, W2_arg11, W2_v17]
theorem V3_v21 (c : Dev nD) : V3 m ρ c main_v21 = band (R := 128) 0 (by omega) (m ((c : Thread nD τ).loc main_arg6)) := by
  have h : V3 m ρ c main_v21 = extractStridedSlice S64x128 ![0, 0] (W2 m ρ c (Proc.devRef .tc main_arg6)) slices_S128x128_S64x128_0_0 := by
    show StableHlo.after hostOps1 (W2 m ρ c) (Proc.devRef .tc main_v21) = _
    after_results <;> rfl
  rw [h, W2_arg6, slice128_0]
theorem V3_v22 (c : Dev nD) : V3 m ρ c main_v22 = band (R := 128) 64 (by omega) (m ((c : Thread nD τ).loc main_arg6)) := by
  have h : V3 m ρ c main_v22 = extractStridedSlice S64x128 ![64, 0] (W2 m ρ c (Proc.devRef .tc main_arg6)) slices_S128x128_S64x128_64_0 := by
    show StableHlo.after hostOps1 (W2 m ρ c) (Proc.devRef .tc main_v22) = _
    after_results <;> rfl
  rw [h, W2_arg6, slice128_64]

/-- The node result array as the launch memory's function: the node perceptron of the per-node sums of the edge
    results, the node features and the parameters. -/
def nodeOf (c : Dev nD) : SN.Idx → EReal :=
  nodeArr (sumInto (m ((c : Thread nD τ).loc main_arg11)) (edgeOf m c)) (m ((c : Thread nD τ).loc main_arg0))
    (band (R := 128) 0 (by omega) (m ((c : Thread nD τ).loc main_arg6)))
    (band (R := 128) 64 (by omega) (m ((c : Thread nD τ).loc main_arg6)))
    (m ((c : Thread nD τ).loc main_arg7)) (m ((c : Thread nD τ).loc main_arg8)) (m ((c : Thread nD τ).loc main_arg9))

/-! ## The two results at the last boundary -/

/-- The edge result is not touched after the edge region. -/
theorem W4_v17 (c : Dev nD) : W4 m ρ c (Proc.devRef .tc main_v17) = edgeOf m c :=
  calc W4 m ρ c (Proc.devRef .tc main_v17)
    _ = W3 m ρ c (Proc.devRef .tc main_v17) := W4_of_ne m ρ c main_v17 (by decide)
    _ = W2 m ρ c (Proc.devRef .tc main_v17) := by
          show StableHlo.after hostOps1 (W2 m ρ c) (Proc.devRef .tc main_v17) = _
          after_results <;> rfl
    _ = edgeOf m c := W2_v17 m ρ c

theorem W4_v23 (c : Dev nD) : W4 m ρ c (Proc.devRef .tc main_v23) = nodeOf m c := by
  refine (W4_arr m ρ c 7).trans ?_
  rw [NodeValue.node_arr (V3 m ρ) c, V3_v20, V3_arg0, V3_v21, V3_v22, V3_arg7, V3_arg8, V3_arg9]
  rfl

end Cert.KernelIdeal.HostValue

end
-- ==== Proof.RefValueAux.lean ====
/-
  Two facts about tables laid side by side, stated over plain variables so that no program is in sight.

  A table whose columns are those of several narrower tables laid end to end is read, at a column, in the piece that
  holds the column. A row of such a table times a matrix with as many rows is the sum, over the pieces, of the piece's
  row times the band of the matrix that faces it: the sum over the columns is split into runs, nothing else. With
  both, an entry of the perceptron computed from the joined table and the stacked weight is the same entry computed
  from the pieces and the bands.
-/
import proofs.«111756_j40140764348810_1_alg».proof.ReferenceIdeal
import proofs.«111756_j40140764348810_1_alg».proof.Proof.Mlp
import Idealize.ShloMosaic.Lib.Pipeline.Value
import Idealize.ShloMosaic.Lib.ValueIdx
import Idealize.ShloMosaic.PureOps.Ideal.Laws

set_option maxRecDepth 16384

noncomputable section

namespace Cert.ReferenceIdeal.RefValue

open Cert.ReferenceIdeal Cert.Mlp
open Idealize.ShloMosaic Idealize.ShloMosaic.TcCoe Idealize.ShloMosaic.ValueIdx

/-! ## Three tables of 64 columns side by side -/

/-- The first of three row tables laid side by side: columns 0 to 63 of the joined table are its columns. -/
theorem cat3_fst (h : Shape.Concatenates [S800000x64, S800000x64, S800000x64] S800000x192 1)
    (y0 y1 y2 : (⟨S800000x64, .f32⟩ : BufTy).Contents (Elt Ideal)) (r : Fin 800000) (k : Fin 64) :
    concatenate S800000x192 1 [⟨S800000x64, y0⟩, ⟨S800000x64, y1⟩, ⟨S800000x64, y2⟩] h
        (ix2 (n0 := 800000) (n1 := 192) r ⟨k.val, by omega⟩) = y0 (ix2 r k) := by
  refine concatenate_apply_piece (1 : Fin S800000x192.rank)
    [⟨S800000x64, y0⟩, ⟨S800000x64, y1⟩, ⟨S800000x64, y2⟩] h _ 0 (Nat.zero_lt_succ _) S800000x64 y0 rfl rfl 0 rfl
    (ix2 r k) ?_ ?_
  · intro b hb
    match b with
    | ⟨0, _⟩ => rfl
    | ⟨1, _⟩ => exact absurd rfl hb
  · show 0 + k.val = k.val
    omega

/-- The second of the three: columns 64 to 127 of the joined table. -/
theorem cat3_snd (h : Shape.Concatenates [S800000x64, S800000x64, S800000x64] S800000x192 1)
    (y0 y1 y2 : (⟨S800000x64, .f32⟩ : BufTy).Contents (Elt Ideal)) (r : Fin 800000) (k : Fin 64) :
    concatenate S800000x192 1 [⟨S800000x64, y0⟩, ⟨S800000x64, y1⟩, ⟨S800000x64, y2⟩] h
        (ix2 (n0 := 800000) (n1 := 192) r ⟨64 + k.val, by omega⟩) = y1 (ix2 r k) := by
  refine concatenate_apply_piece (1 : Fin S800000x192.rank)
    [⟨S800000x64, y0⟩, ⟨S800000x64, y1⟩, ⟨S800000x64, y2⟩] h _ 1 (by show (1 : Nat) < 3; omega) S800000x64 y1 rfl rfl 64 rfl
    (ix2 r k) ?_ ?_
  · intro b hb
    match b with
    | ⟨0, _⟩ => rfl
    | ⟨1, _⟩ => exact absurd rfl hb
  · rfl

/-- The third of the three: columns 128 to 191 of the joined table. -/
theorem cat3_thd (h : Shape.Concatenates [S800000x64, S800000x64, S800000x64] S800000x192 1)
    (y0 y1 y2 : (⟨S800000x64, .f32⟩ : BufTy).Contents (Elt Ideal)) (r : Fin 800000) (k : Fin 64) :
    concatenate S800000x192 1 [⟨S800000x64, y0⟩, ⟨S800000x64, y1⟩, ⟨S800000x64, y2⟩] h
        (ix2 (n0 := 800000) (n1 := 192) r ⟨128 + k.val, by omega⟩) = y2 (ix2 r k) := by
  refine concatenate_apply_piece (1 : Fin S800000x192.rank)
    [⟨S800000x64, y0⟩, ⟨S800000x64, y1⟩, ⟨S800000x64, y2⟩] h _ 2 (by show (2 : Nat) < 3; omega) S800000x64 y2 rfl rfl 128 rfl
    (ix2 r k) ?_ ?_
  · intro b hb
    match b with
    | ⟨0, _⟩ => rfl
    | ⟨1, _⟩ => exact absurd rfl hb
  · rfl

/-- A row of three 64-entry pieces laid end to end, times a stacked 192-row matrix, is the sum of the three pieces
    times the three bands of the matrix: the sum over the 192 positions is split into three runs of 64. -/
theorem stacked3 (c : Fin 192 → EReal) (W : (⟨2, ![192, 128]⟩ : Shape).Idx → EReal) (a0 a1 a2 : Fin 64 → EReal)
    (h : Fin 128) (e0 : ∀ k : Fin 64, c ⟨k.val, by omega⟩ = a0 k) (e1 : ∀ k : Fin 64, c ⟨64 + k.val, by omega⟩ = a1 k)
    (e2 : ∀ k : Fin 64, c ⟨128 + k.val, by omega⟩ = a2 k) :
    ∑ k : Fin 192, c k * W (ix2 k h)
      = rowDot a0 (fun k h => band (R := 192) 0 (by omega) W (ix2 k h)) h
        + rowDot a1 (fun k h => band (R := 192) 64 (by omega) W (ix2 k h)) h
        + rowDot a2 (fun k h => band (R := 192) 128 (by omega) W (ix2 k h)) h := by
  rw [sum_fin192]
  refine congrArg₂ (· + ·) (congrArg₂ (· + ·) ?_ ?_) ?_ <;> refine Finset.sum_congr rfl fun k _ => ?_
  · have hk : (⟨k.val, by omega⟩ : Fin 192) = ⟨0 + k.val, by omega⟩ := Fin.ext (Nat.zero_add _).symm
    exact (congrArg₂ (· * ·) (e0 k) (congrArg (fun j => W (ix2 j h)) hk))
  · exact congrArg (· * W (ix2 ⟨64 + k.val, by omega⟩ h)) (e1 k)
  · exact congrArg (· * W (ix2 ⟨128 + k.val, by omega⟩ h)) (e2 k)

/-- One entry of the edge result, read off any table `c` of 192 columns whose three runs of 64 columns are the
    three row tables: the hidden layer's one product with the stacked weight is the sum of the three products with
    its bands, and the rest of the layer is entry by entry the same. -/
theorem edge_at (c : S800000x192.Idx → EReal) (y0 y1 y2 : S800000x64.Idx → EReal) (W : S192x128.Idx → EReal)
    (b1 : S128.Idx → EReal) (w3 : S128x64.Idx → EReal) (b2 : S64.Idx → EReal) (r : Fin 800000) (q : Fin 64)
    (e0 : ∀ k : Fin 64, c (ix2 r ⟨k.val, by omega⟩) = y0 (ix2 r k))
    (e1 : ∀ k : Fin 64, c (ix2 r ⟨64 + k.val, by omega⟩) = y1 (ix2 r k))
    (e2 : ∀ k : Fin 64, c (ix2 r ⟨128 + k.val, by omega⟩) = y2 (ix2 r k)) :
    (∑ h : Fin 128, max ((∑ k : Fin 192, c (ix2 r k) * W (ix2 k h)) + b1 (ix1 h)) z0 * w3 (ix2 h q)) + b2 (ix1 q)
      = edgeArr y0 y1 y2 (band (R := 192) 0 (by omega) W) (band (R := 192) 64 (by omega) W)
          (band (R := 192) 128 (by omega) W) b1 w3 b2 (ix2 r q) := by
  have hs : ∀ h : Fin 128, ∑ k : Fin 192, c (ix2 r k) * W (ix2 k h)
      = rowDot (fun k => y0 (ix2 r k)) (fun k h => band (R := 192) 0 (by omega) W (ix2 k h)) h
        + rowDot (fun k => y1 (ix2 r k)) (fun k h => band (R := 192) 64 (by omega) W (ix2 k h)) h
        + rowDot (fun k => y2 (ix2 r k)) (fun k h => band (R := 192) 128 (by omega) W (ix2 k h)) h :=
    fun h => stacked3 (fun k => c (ix2 r k)) W _ _ _ h e0 e1 e2
  refine congrArg₂ (· + ·) (Finset.sum_congr rfl fun h _ => ?_) rfl
  rw [hs h]

/-! ## Two tables of 64 columns side by side -/

/-- The first of two row tables laid side by side: columns 0 to 63 of the joined table are its columns. -/
theorem cat2_fst (h : Shape.Concatenates [S50000x64, S50000x64] S50000x128 1)
    (y0 y1 : (⟨S50000x64, .f32⟩ : BufTy).Contents (Elt Ideal)) (r : Fin 50000) (k : Fin 64) :
    concatenate S50000x128 1 [⟨S50000x64, y0⟩, ⟨S50000x64, y1⟩] h
        (ix2 (n0 := 50000) (n1 := 128) r ⟨k.val, by omega⟩) = y0 (ix2 r k) := by
  refine concatenate_pair_apply_left (1 : Fin S50000x128.rank) y0 y1 h _ rfl (ix2 r k) ?_
  intro b
  match b with
  | ⟨0, _⟩ => rfl
  | ⟨1, _⟩ => rfl

/-- The second of the two: columns 64 to 127 of the joined table. -/
theorem cat2_snd (h : Shape.Concatenates [S50000x64, S50000x64] S50000x128 1)
    (y0 y1 : (⟨S50000x64, .f32⟩ : BufTy).Contents (Elt Ideal)) (r : Fin 50000) (k : Fin 64) :
    concatenate S50000x128 1 [⟨S50000x64, y0⟩, ⟨S50000x64, y1⟩] h
        (ix2 (n0 := 50000) (n1 := 128) r ⟨64 + k.val, by omega⟩) = y1 (ix2 r k) := by
  refine concatenate_pair_apply_right (1 : Fin S50000x128.rank) y0 y1 h _ rfl rfl (ix2 r k) ?_ ?_
  · intro b hb
    match b with
    | ⟨0, _⟩ => rfl
    | ⟨1, _⟩ => exact absurd rfl hb
  · show k.val + 64 = 64 + k.val
    omega

/-- A row of two 64-entry pieces laid end to end, times a stacked 128-row matrix, is the sum of the two pieces times
    the two bands of the matrix. -/
theorem stacked2 (c : Fin 128 → EReal) (W : (⟨2, ![128, 128]⟩ : Shape).Idx → EReal) (a0 a1 : Fin 64 → EReal)
    (h : Fin 128) (e0 : ∀ k : Fin 64, c ⟨k.val, by omega⟩ = a0 k) (e1 : ∀ k : Fin 64, c ⟨64 + k.val, by omega⟩ = a1 k) :
    ∑ k : Fin 128, c k * W (ix2 k h)
      = rowDot a0 (fun k h => band (R := 128) 0 (by omega) W (ix2 k h)) h
        + rowDot a1 (fun k h => band (R := 128) 64 (by omega) W (ix2 k h)) h := by
  rw [sum_fin128]
  refine congrArg₂ (· + ·) ?_ ?_ <;> refine Finset.sum_congr rfl fun k _ => ?_
  · have hk : (⟨k.val, by omega⟩ : Fin 128) = ⟨0 + k.val, by omega⟩ := Fin.ext (Nat.zero_add _).symm
    exact (congrArg₂ (· * ·) (e0 k) (congrArg (fun j => W (ix2 j h)) hk))
  · exact congrArg (· * W (ix2 ⟨64 + k.val, by omega⟩ h)) (e1 k)

/-- Entry (r, q) of the node layer as the reference's stages spell it, over any joined table `c`: row r of `c`
    times the stacked weight plus the first bias, clipped at the zero word, times the second weight, plus the second
    bias. -/
def stagedNode (c : S50000x128.Idx → EReal) (W : S128x128.Idx → EReal) (b1 : S128.Idx → EReal)
    (w3 : S128x64.Idx → EReal) (b2 : S64.Idx → EReal) (r : Fin 50000) (q : Fin 64) : EReal :=
  FloatOps.addf (F := Ideal) (φ := .f32)
    (∑ h : Fin 128, FloatOps.maximumf (F := Ideal) (φ := .f32)
        (FloatOps.addf (F := Ideal) (φ := .f32) (∑ k : Fin 128, c (ix2 r k) * W (ix2 k h)) (b1 (ix1 h)))
        (FloatOps.ofBits (F := Ideal) .f32 0x00000000#32) * w3 (ix2 h q))
    (b2 (ix1 q))

/-- When the two runs of 64 columns of `c` are the two row tables, that entry is the node perceptron's: the hidden
    layer's one product with the stacked weight is the sum of the two products with its bands. -/
theorem node_at (c : S50000x128.Idx → EReal) (y0 y1 : S50000x64.Idx → EReal) (W : S128x128.Idx → EReal)
    (b1 : S128.Idx → EReal) (w3 : S128x64.Idx → EReal) (b2 : S64.Idx → EReal) (r : Fin 50000) (q : Fin 64)
    (e0 : ∀ k : Fin 64, c (ix2 r ⟨k.val, by omega⟩) = y0 (ix2 r k))
    (e1 : ∀ k : Fin 64, c (ix2 r ⟨64 + k.val, by omega⟩) = y1 (ix2 r k)) :
    stagedNode c W b1 w3 b2 r q
      = nodeArr y0 y1 (band (R := 128) 0 (by omega) W) (band (R := 128) 64 (by omega) W) b1 w3 b2 (ix2 r q) := by
  have hs : ∀ h : Fin 128, ∑ k : Fin 128, c (ix2 r k) * W (ix2 k h)
      = rowDot (fun k => y0 (ix2 r k)) (fun k h => band (R := 128) 0 (by omega) W (ix2 k h)) h
        + rowDot (fun k => y1 (ix2 r k)) (fun k h => band (R := 128) 64 (by omega) W (ix2 k h)) h :=
    fun h => stacked2 (fun k => c (ix2 r k)) W _ _ h e0 e1
  show (∑ h : Fin 128, max ((∑ k : Fin 128, c (ix2 r k) * W (ix2 k h)) + b1 (ix1 h)) z0 * w3 (ix2 h q)) + b2 (ix1 q) = _
  refine congrArg₂ (· + ·) (Finset.sum_congr rfl fun h _ => ?_) rfl
  rw [hs h]

end Cert.ReferenceIdeal.RefValue

end
-- ==== Proof.RefValue.lean ====
import proofs.«111756_j40140764348810_1_alg».proof.Proof.Gen.ReferenceIdeal.Read
import proofs.«111756_j40140764348810_1_alg».proof.Proof.Mlp
import proofs.«111756_j40140764348810_1_alg».proof.Proof.RefValueAux
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Read Cert.Mlp
open Idealize.ShloMosaic Idealize.ShloMosaic.TcCoe Idealize.ShloMosaic.ValueIdx

/-! ## The edge layer -/

/-- The reference's joined edge table at a column of its first run is the edge features. -/
theorem joined3_fst (x0 : (⟨S50000x64, .f32⟩ : BufTy).Contents (Elt Ideal)) (x1 : (⟨S800000x64, .f32⟩ : BufTy).Contents (Elt Ideal))
    (x10 x11 : (⟨S800000, .i32⟩ : BufTy).Contents (Elt Ideal)) (r : Fin 800000) (k : Fin 64) :
    val_main_v14 (F := Ideal) x0 x1 x10 x11 (ix2 (n0 := 800000) (n1 := 192) r ⟨k.val, by omega⟩) = x1 (ix2 r k) := by
  unfold val_main_v14
  exact cat3_fst _ x1 _ _ r k

/-- At a column of its second run it is the gathered sender rows. -/
theorem joined3_snd (x0 : (⟨S50000x64, .f32⟩ : BufTy).Contents (Elt Ideal)) (x1 : (⟨S800000x64, .f32⟩ : BufTy).Contents (Elt Ideal))
    (x10 x11 : (⟨S800000, .i32⟩ : BufTy).Contents (Elt Ideal)) (r : Fin 800000) (k : Fin 64) :
    val_main_v14 (F := Ideal) x0 x1 x10 x11 (ix2 (n0 := 800000) (n1 := 192) r ⟨64 + k.val, by omega⟩)
      = val_main_v6 (F := Ideal) x0 x10 (ix2 r k) := by
  unfold val_main_v14
  exact cat3_snd _ x1 _ _ r k

/-- At a column of its third run it is the gathered receiver rows. -/
theorem joined3_thd (x0 : (⟨S50000x64, .f32⟩ : BufTy).Contents (Elt Ideal)) (x1 : (⟨S800000x64, .f32⟩ : BufTy).Contents (Elt Ideal))
    (x10 x11 : (⟨S800000, .i32⟩ : BufTy).Contents (Elt Ideal)) (r : Fin 800000) (k : Fin 64) :
    val_main_v14 (F := Ideal) x0 x1 x10 x11 (ix2 (n0 := 800000) (n1 := 192) r ⟨128 + k.val, by omega⟩)
      = val_main_v13 (F := Ideal) x0 x11 (ix2 r k) := by
  unfold val_main_v14
  exact cat3_thd _ x1 _ _ r k

/-- The reference's edge result is the edge perceptron of the edge features, the two gathered row tables and the
    three bands of the stacked first weight: its one product with the stacked matrix is the sum of the three
    products with the bands. -/
theorem ref_edge (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) :
    val_main_v23 (F := Ideal) x0 x1 x2 x3 x4 x5 x10 x11
      = edgeArr x1 (val_main_v6 (F := Ideal) x0 x10) (val_main_v13 (F := Ideal) x0 x11)
          (band (R := 192) 0 (by omega) x2) (band (R := 192) 64 (by omega) x2) (band (R := 192) 128 (by omega) x2) x3 x4 x5 := by
  funext i
  obtain ⟨r, q, rfl⟩ : ∃ (r : Fin 800000) (q : Fin 64), i = ix2 r q := ⟨i 0, i 1, eq_ix2 i⟩
  -- the stages from the result down to the joined table, each read at an index
  rw [val_main_v23_apply, val_main_v20_apply, val_main_v22_apply, val_main_v21_apply]
  simp only [val_main_v19_apply, val_main_v18_apply, val_main_v15_apply, val_main_v17_apply, val_main_v16_apply,
    val_main_call0_v0_apply, val_main_call0_cst_apply]
  -- the composed index maps are the coordinates: row r of the joined table, column h of the weights and the bias
  have hl15 : ∀ (h : Fin 128) (k : Fin 192), lidx_main_v15 (lidx_main_v20 (ix2 r q) h) k = ix2 r k :=
    fun h k => funext fun a => Fin.ext (by match a with | ⟨0, _⟩ => rfl | ⟨1, _⟩ => rfl)
  have hr15 : ∀ (h : Fin 128) (k : Fin 192), ridx_main_v15 (lidx_main_v20 (ix2 r q) h) k = ix2 k h :=
    fun h k => funext fun a => Fin.ext (by match a with | ⟨0, _⟩ => rfl | ⟨1, _⟩ => rfl)
  have h3 : ∀ h : Fin 128, idx_main_v16 (idx_main_v17 (lidx_main_v20 (ix2 r q) h)) = ix1 h :=
    fun h => funext fun a => Fin.ext (by match a with | ⟨0, _⟩ => rfl)
  have hr20 : ∀ h : Fin 128, ridx_main_v20 (ix2 r q) h = ix2 h q :=
    fun h => funext fun a => Fin.ext (by match a with | ⟨0, _⟩ => rfl | ⟨1, _⟩ => rfl)
  have h5 : idx_main_v21 (idx_main_v22 (ix2 r q)) = ix1 q :=
    funext fun a => Fin.ext (by match a with | ⟨0, _⟩ => rfl)
  simp only [hl15, hr15, h3, hr20, h5]
  simp only [Idealize.ShloMosaic.Ideal.addf_def, Idealize.ShloMosaic.Ideal.maximumf_def,
    Idealize.ShloMosaic.Ideal.ofBits_def]
  -- the joined table is the three row tables side by side; the gathered ones are whatever they are
  exact edge_at (val_main_v14 (F := Ideal) x0 x1 x10 x11) x1 (val_main_v6 (F := Ideal) x0 x10)
    (val_main_v13 (F := Ideal) x0 x11) x2 x3 x4 x5 r q (joined3_fst x0 x1 x10 x11 r) (joined3_snd x0 x1 x10 x11 r)
    (joined3_thd x0 x1 x10 x11 r)

/-! ## The node layer -/

/-- The reference's joined node table at a column of its first run is the aggregated messages. -/
theorem joined2_fst (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) (r : Fin 50000) (k : Fin 64) :
    val_main_v27 (F := Ideal) x0 x1 x2 x3 x4 x5 x10 x11 (ix2 (n0 := 50000) (n1 := 128) r ⟨k.val, by omega⟩)
      = val_main_v26 (F := Ideal) x0 x1 x2 x3 x4 x5 x10 x11 (ix2 r k) := by
  unfold val_main_v27
  exact cat2_fst _ _ x0 r k

/-- At a column of its second run it is the node features. -/
theorem joined2_snd (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x10 x11 : (⟨S800000, .i32⟩ : BufTy).Contents (Elt Ideal)) (r : Fin 50000) (k : Fin 64) :
    val_main_v27 (F := Ideal) x0 x1 x2 x3 x4 x5 x10 x11 (ix2 (n0 := 50000) (n1 := 128) r ⟨64 + k.val, by omega⟩)
      = x0 (ix2 r k) := by
  unfold val_main_v27
  exact cat2_snd _ _ x0 r k

/-- The hidden row of the reference's node layer before the clip, at an entry: row r of the joined table times the
    stacked weight, plus the first bias. -/
theorem node_pre (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x10 x11 : (⟨S800000, .i32⟩ : BufTy).Contents (Elt Ideal)) (r : Fin 50000) (h : Fin 128) :
    val_main_v31 (F := Ideal) x0 x1 x2 x3 x4 x5 x6 x7 x10 x11 (ix2 r h)
      = FloatOps.addf (F := Ideal) (φ := .f32)
          (∑ k : Fin 128, val_main_v27 (F := Ideal) x0 x1 x2 x3 x4 x5 x10 x11 (ix2 r k) * x6 (ix2 k h)) (x7 (ix1 h)) := by
  have h7 : idx_main_v29 (idx_main_v30 (ix2 r h)) = ix1 h :=
    funext fun a => Fin.ext (by match a with | ⟨0, _⟩ => rfl)
  rw [val_main_v31_apply, val_main_v28_apply, val_main_v30_apply, val_main_v29_apply, h7]
  refine congrArg (fun z => FloatOps.addf (F := Ideal) (φ := .f32) z (x7 (ix1 h))) (Finset.sum_congr rfl fun k _ => ?_)
  have hl : lidx_main_v28 (ix2 r h) k = ix2 r k :=
    funext fun a => Fin.ext (by match a with | ⟨0, _⟩ => rfl | ⟨1, _⟩ => rfl)
  have hr : ridx_main_v28 (ix2 r h) k = ix2 k h :=
    funext fun a => Fin.ext (by match a with | ⟨0, _⟩ => rfl | ⟨1, _⟩ => rfl)
  rw [hl, hr]

/-- The reference's node result at an entry is the node layer as its stages spell it, over its joined table. -/
theorem node_stages (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal))
    (x10 x11 : (⟨S800000, .i32⟩ : BufTy).Contents (Elt Ideal)) (r : Fin 50000) (q : Fin 64) :
    val_main_v36 (F := Ideal) x0 x1 x2 x3 x4 x5 x6 x7 x8 x9 x10 x11 (ix2 r q)
      = stagedNode (val_main_v27 (F := Ideal) x0 x1 x2 x3 x4 x5 x10 x11) x6 x7 x8 x9 r q := by
  have h9 : idx_main_v34 (idx_main_v35 (ix2 r q)) = ix1 q :=
    funext fun a => Fin.ext (by match a with | ⟨0, _⟩ => rfl)
  rw [stagedNode, val_main_v36_apply, val_main_v33_apply, val_main_v35_apply, val_main_v34_apply, h9]
  refine congrArg (fun z => FloatOps.addf (F := Ideal) (φ := .f32) z (x9 (ix1 q))) (Finset.sum_congr rfl fun h _ => ?_)
  have hl : lidx_main_v33 (ix2 r q) h = ix2 r h :=
    funext fun a => Fin.ext (by match a with | ⟨0, _⟩ => rfl | ⟨1, _⟩ => rfl)
  have hr : ridx_main_v33 (ix2 r q) h = ix2 h q :=
    funext fun a => Fin.ext (by match a with | ⟨0, _⟩ => rfl | ⟨1, _⟩ => rfl)
  rw [hl, hr, val_main_v32_apply, node_pre x0 x1 x2 x3 x4 x5 x6 x7 x10 x11 r h, val_main_call1_v0_apply,
    val_main_call1_cst_apply]

/-- The reference's node result is the node perceptron of the aggregated messages, the node features and the two
    bands of the stacked first node weight. -/
theorem ref_node (x0 : (⟨S50000x64, .f32⟩ : BufTy).Contents (Elt Ideal)) (x1 : (⟨S800000x64, .f32⟩ : BufTy).Contents (Elt Ideal))
    (x2 : (⟨S192x128, .f32⟩ : BufTy).Contents (Elt Ideal)) (x3 : (⟨S128, .f32⟩ : BufTy).Contents (Elt Ideal))
    (x4 : (⟨S128x64, .f32⟩ : BufTy).Contents (Elt Ideal)) (x5 : (⟨S64, .f32⟩ : BufTy).Contents (Elt Ideal))
    (x6 : (⟨S128x128, .f32⟩ : BufTy).Contents (Elt Ideal)) (x7 : (⟨S128, .f32⟩ : BufTy).Contents (Elt Ideal))
    (x8 : (⟨S128x64, .f32⟩ : BufTy).Contents (Elt Ideal)) (x9 : (⟨S64, .f32⟩ : BufTy).Contents (Elt Ideal))
    (x10 x11 : (⟨S800000, .i32⟩ : BufTy).Contents (Elt Ideal)) :
    val_main_v36 (F := Ideal) x0 x1 x2 x3 x4 x5 x6 x7 x8 x9 x10 x11
      = nodeArr (val_main_v26 (F := Ideal) x0 x1 x2 x3 x4 x5 x10 x11) x0
          (band (R := 128) 0 (by omega) x6) (band (R := 128) 64 (by omega) x6) x7 x8 x9 := by
  funext i
  obtain ⟨r, q, rfl⟩ : ∃ (r : Fin 50000) (q : Fin 64), i = ix2 r q := ⟨i 0, i 1, eq_ix2 i⟩
  exact (node_stages x0 x1 x2 x3 x4 x5 x6 x7 x8 x9 x10 x11 r q).trans
    (node_at (val_main_v27 (F := Ideal) x0 x1 x2 x3 x4 x5 x10 x11) (val_main_v26 (F := Ideal) x0 x1 x2 x3 x4 x5 x10 x11)
      x0 x6 x7 x8 x9 r q (joined2_fst x0 x1 x2 x3 x4 x5 x10 x11 r) (joined2_snd x0 x1 x2 x3 x4 x5 x10 x11 r))

end Cert.ReferenceIdeal.RefValue

end
-- ==== Proof.lean ====
/-
  A graph-network layer, certified against its plain reference over the extended reals.

  Both programs update every edge by a two-layer perceptron of (its own features, the features of its sender node,
  the features of its receiver node), add each updated edge into its receiver node, and update every node by a
  second two-layer perceptron of (the sum it received, its own features). The rows of the node table are fetched
  by the same host gather in both, and the per-node sums are taken by the same host scatter-add, so those two
  steps are carried as opaque functions. The programs differ in one place only: the reference lays the inputs of a
  perceptron end to end and multiplies once by the stacked first weight, while the kernel multiplies each input by
  its own 64-row band of that weight and adds the products. A sum over 192 (or 128) indices regrouped into sums
  over 64 is the whole of the mathematics; it needs commutativity and associativity of addition and nothing about
  finiteness, so the precondition is never opened.

  The kernel's side: the run of the two regions and the host operations between them gives each result array at
  the last boundary of a fold through the program; each region's output array is the perceptron, row by row, of
  the arrays the region reads; each of those is walked back to the launch memory. The reference's side: its run,
  read one operation at a time, is the same two functions of the arguments.
-/
import proofs.«111756_j40140764348810_1_alg».proof.Defs
import proofs.«111756_j40140764348810_1_alg».proof.Proof.Gen.Kernel
import proofs.«111756_j40140764348810_1_alg».proof.Proof.Gen.Kernel.Frame
import proofs.«111756_j40140764348810_1_alg».proof.Proof.Gen.KernelIdeal
import proofs.«111756_j40140764348810_1_alg».proof.Proof.Gen.KernelIdeal.Frame
import proofs.«111756_j40140764348810_1_alg».proof.Proof.Gen.ReferenceIdeal
import proofs.«111756_j40140764348810_1_alg».proof.Proof.Gen.ReferenceIdeal.Run
import proofs.«111756_j40140764348810_1_alg».proof.Proof.Gen.ReferenceIdeal.Read
import proofs.«111756_j40140764348810_1_alg».proof.Proof.Gen.Pre_finite_inputs
import proofs.«111756_j40140764348810_1_alg».proof.Proof.Mlp
import proofs.«111756_j40140764348810_1_alg».proof.Proof.KernelRun
import proofs.«111756_j40140764348810_1_alg».proof.Proof.KernelValue
import proofs.«111756_j40140764348810_1_alg».proof.Proof.RefValue
import Idealize.ShloMosaic.Adequacy
import Idealize.ShloMosaic.Init

noncomputable section

namespace Cert.Proof

open Idealize.ShloMosaic Idealize.ShloMosaic.TcCoe Idealize.SL.Sem
open Cert.KernelIdeal.HostValue Cert.ReferenceIdeal.Read Cert.ReferenceIdeal.RefValue Cert.Mlp

/-! ## The shared host steps are one function in both programs -/

/-- The reference's sender-row gather is the kernel program's: the same index normalisation, the same gather. -/
theorem rows_sender (x : (⟨Cert.KernelIdeal.S50000x64, .f32⟩ : BufTy).Contents (Elt Ideal))
    (a : (⟨Cert.KernelIdeal.S800000, .i32⟩ : BufTy).Contents (Elt Ideal)) :
    val_main_v6 (F := Ideal) x a = rowsOf x a := rfl

/-- The same for the receiver rows. -/
theorem rows_receiver (x : (⟨Cert.KernelIdeal.S50000x64, .f32⟩ : BufTy).Contents (Elt Ideal))
    (a : (⟨Cert.KernelIdeal.S800000, .i32⟩ : BufTy).Contents (Elt Ideal)) :
    val_main_v13 (F := Ideal) x a = rowsOf x a := rfl

/-- The reference's aggregation is the kernel program's scatter-add of the reference's own edge result. -/
theorem agg_eq (x0 : (⟨Cert.ReferenceIdeal.S50000x64, .f32⟩ : BufTy).Contents (Elt Ideal))
    (x1 : (⟨Cert.ReferenceIdeal.S800000x64, .f32⟩ : BufTy).Contents (Elt Ideal))
    (x2 : (⟨Cert.ReferenceIdeal.S192x128, .f32⟩ : BufTy).Contents (Elt Ideal)) (x3 : (⟨Cert.ReferenceIdeal.S128, .f32⟩ : BufTy).Contents (Elt Ideal))
    (x4 : (⟨Cert.ReferenceIdeal.S128x64, .f32⟩ : BufTy).Contents (Elt Ideal)) (x5 : (⟨Cert.ReferenceIdeal.S64, .f32⟩ : BufTy).Contents (Elt Ideal))
    (x10 x11 : (⟨Cert.ReferenceIdeal.S800000, .i32⟩ : BufTy).Contents (Elt Ideal)) :
    val_main_v26 (F := Ideal) x0 x1 x2 x3 x4 x5 x10 x11 = sumInto x11 (val_main_v23 (F := Ideal) x0 x1 x2 x3 x4 x5 x10 x11) := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing in this kernel. -/
theorem preserves : Cert.preserves_Kernel_KernelIdeal := trivial

/-- From memories that agree on the arguments both programs end with the edge array at the edge perceptron of the
    arguments and the node array at the node perceptron of the per-node sums of that edge array. -/
theorem algebraic : Cert.algebraic_KernelIdeal_ReferenceIdeal := by
  intro m ρ m' ρ' _ hagree
  refine ⟨fun c => edgeOf m c, fun c => nodeOf m c, ?_, ?_⟩
  · exact (θ_run Cert.KernelIdeal.defs _ _).mono
      (fun r h c => ⟨(h c).1.trans (W4_v17 m ρ c), (h c).2.1.trans (W4_v23 m ρ c), (h c).2.2⟩)
      (Cert.KernelIdeal.Named.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11⟩ := hagree c
      rw [val_main_v23_eq, ref_edge, rows_sender, rows_receiver, h0, h1, h2, h3, h4, h5, h10, h11]
      rfl
    · obtain ⟨h0, h1, h2, h3, h4, h5, h6, h7, h8, h9, h10, h11⟩ := hagree c
      rw [val_main_v36_eq, ref_node, agg_eq, ref_edge, rows_sender, rows_receiver, h0, h1, h2, h3, h4, h5, h6, h7, h8, h9, h10, h11]
      rfl

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
